-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S2x1600000 32) (main_v33 : IVec S_ 1) : IVec S_ 1 :=
  let main_v34 : IVec S1x1600000 32 := (extractStridedSlice S1x1600000 ![0, 0] · slices_S2x1600000_S1x1600000_0_0) main_arg7
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg7
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg4 : FVec F S128 .f32) (main_arg5 : FVec F S128x10 .f32) (main_arg6 : FVec F S10 .f32) (main_arg7 : IVec S2x1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S64x128 .f32) (main_arg2 : FVec F S128 .f32) (main_arg3 : FVec F S128x128 .f32) (main_arg4 : FVec F S128 .f32) (main_arg5 : FVec F S128x10 .f32) (main_arg6 : FVec F S10 .f32) (main_arg7 : IVec S2x1600000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1 : Shape := ⟨1, ![1]⟩
abbrev S1x1 : Shape := ⟨2, ![1, 1]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S64 : Shape := ⟨1, ![64]⟩
abbrev S100000x1 : Shape := ⟨2, ![100000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 135
  | .vmem => 32
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x128, .f32⟩
  | 4 => ⟨S128, .f32⟩
  | 5 => ⟨S128x10, .f32⟩
  | 6 => ⟨S10, .f32⟩
  | 7 => ⟨S2x1600000, .i32⟩
  | 8 => ⟨S100000, .i32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1, .i32⟩
  | 63 => ⟨S_, .i32⟩
  | 64 => ⟨S1700000x1, .i32⟩
  | 65 => ⟨S1700000x1, .i1⟩
  | 66 => ⟨S1x1, .i32⟩
  | 67 => ⟨S1700000x1, .i32⟩
  | 68 => ⟨S1700000x1, .i1⟩
  | 69 => ⟨S1700000x1, .i1⟩
  | 70 => ⟨S_, .i1⟩
  | 71 => ⟨S1700000, .i1⟩
  | 72 => ⟨S1700000x128, .f32⟩
  | 73 => ⟨S1700000x128, .i1⟩
  | 74 => ⟨S_, .f32⟩
  | 75 => ⟨S1700000x128, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1, .i32⟩
  | 94 => ⟨S_, .i32⟩
  | 95 => ⟨S1700000x1, .i32⟩
  | 96 => ⟨S1700000x1, .i1⟩
  | 97 => ⟨S1x1, .i32⟩
  | 98 => ⟨S1700000x1, .i32⟩
  | 99 => ⟨S1700000x1, .i1⟩
  | 100 => ⟨S1700000x1, .i1⟩
  | 101 => ⟨S_, .i1⟩
  | 102 => ⟨S1700000, .i1⟩
  | 103 => ⟨S1700000x128, .f32⟩
  | 104 => ⟨S1700000x128, .i1⟩
  | 105 => ⟨S_, .f32⟩
  | 106 => ⟨S1700000x128, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S_, .f32⟩
  | 116 => ⟨S100000, .f32⟩
  | 117 => ⟨S_, .f32⟩
  | 118 => ⟨S64, .f32⟩
  | 119 => ⟨S100000x1, .i32⟩
  | 120 => ⟨S64, .f32⟩
  | 121 => ⟨S_, .f32⟩
  | 122 => ⟨S64x128, .f32⟩
  | 123 => ⟨S100000x1, .i32⟩
  | 124 => ⟨S64x128, .f32⟩
  | 125 => ⟨S_, .f32⟩
  | 126 => ⟨S64, .f32⟩
  | 127 => ⟨S64, .f32⟩
  | _ => ⟨S100000x64, .f32⟩

abbrev hbmTy0_1 (i : Nat) : BufTy := match i % 128 with
  | 0 => ⟨S64x1, .f32⟩
  | 1 => ⟨S64x128, .f32⟩
  | 2 => ⟨S64x128, .f32⟩
  | 3 => ⟨S64x10, .f32⟩
  | 4 => ⟨S1x10, .f32⟩
  | 5 => ⟨S64x10, .f32⟩
  | 6 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v34 : Ref sig .tc := ⟨.hbm, 76, rfl⟩
abbrev main_v35 : Ref sig .tc := ⟨.hbm, 77, rfl⟩
abbrev main_cst_7 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v42 : Ref sig .tc := ⟨.hbm, 107, rfl⟩
abbrev main_v43 : Ref sig .tc := ⟨.hbm, 108, rfl⟩
abbrev main_cst_8 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_9 : Ref sig .tc := ⟨.hbm, 115, rfl⟩
abbrev main_v49 : Ref sig .tc := ⟨.hbm, 116, rfl⟩
abbrev main_cst_10 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_11 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_12 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v47) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x1600000, .i32⟩
  | .hbm, ⟨8, _⟩ => ⟨S100000, .i32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S64, .f32⟩
  | .hbm, ⟨102, _⟩ => ⟨S100000x1, .i32⟩
  | .hbm, ⟨103, _⟩ => ⟨S64, .f32⟩
  | .hbm, ⟨104, _⟩ => ⟨S_, .f32⟩
  | .hbm, ⟨105, _⟩ => ⟨S64x128, .f32⟩
  | .hbm, ⟨106, _⟩ => ⟨S100000x1, .i32⟩
  | .hbm, ⟨107, _⟩ => ⟨S64x128, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | .hbm, ⟨114, _⟩ => ⟨S64x10, .f32⟩
  | .hbm, ⟨115, _⟩ => ⟨S1x10, .f32⟩
  | .hbm, ⟨116, _⟩ => ⟨S64x10, .f32⟩
  | .hbm, ⟨117, _⟩ => ⟨S64x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.StagesK.lean ====
/-
  The kernel's program cut into stages, each a function of whole arrays: the host operations between the six
  launches as they are printed, and what each launch leaves in its output array (a matrix product, a row scaling,
  bias and positive part).
-/
import proofs.«426322_j84559316124278_1_alg».proof.KernelIdeal
import Idealize.ShloMosaic.PureOps.Ideal
import Idealize.ShloMosaic.Lib.ValueIdx

noncomputable section

open scoped BigOperators

namespace Cert.KernelIdeal.Stages

open Idealize.ShloMosaic Cert.KernelIdeal Cert.KernelIdeal.Facts₀ Cert.KernelIdeal.Facts

variable [Cert.KernelIdeal.Facts]

variable {F : FTy → Type} [FloatOps F]

/-- Message sources: row 0 of the edge list, then every node once (the self loops). -/
def srcOf (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Aggregation targets: row 1 of the edge list, then every node once. -/
def dstOf (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counted from the end: s + 100000 where s < 0, else s. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- An index vector as the one-column table a gather or scatter reads. -/
def colOf (s : IVec S1700000 32) : IVec S1700000x1 32 := broadcastInDim S1700000x1 ![0] bcast_S1700000_S1700000x1_0 s

/-- In-degree with self loops: one unit added at every target. -/
def degOf (d : IVec S1700000 32) : FVec F S100000 .f32 :=
  Host.scatterAdd scatter_S100000_S1700000x1_S1700000_n_0_0_1 (broadcastInDim S100000 ![] bcast_S_S100000 (constant S_ .f32 0x00000000#32))
    (colOf d) (broadcastInDim S1700000 ![] bcast_S_S1700000 (constant S_ .f32 0x3F800000#32))

/-- deg^(-1/2) where deg > 0, else 0. -/
def dinvOf (deg : FVec F S100000 .f32) : FVec F S100000 .f32 :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- The symmetric normalisation of every message: dinv[src] · dinv[dst]. -/
def normOf (ei : IVec S2x1600000 32) : FVec F S1700000 .f32 :=
  mulf (Host.gather gather_S100000_S1700000x1_S1700000_n_0_n_n_0_1_1 (dinvOf (degOf (dstOf ei))) (colOf (wrapIdx (srcOf ei))))
    (Host.gather gather_S100000_S1700000x1_S1700000_n_0_n_n_0_1_1 (dinvOf (degOf (dstOf ei))) (colOf (wrapIdx (dstOf ei))))

/-- Rows of a node table read at the (wrapped) sources; the gather clamps an index outside the table. -/
def gatherRows (t : FVec F S100000x128 .f32) (s : IVec S1700000 32) : FVec F S1700000x128 .f32 :=
  Host.gather gather_S100000x128_S1700000x1_S1700000x128_1_0_n_n_0_1_1128 t (colOf (wrapIdx s))

/-- Messages summed into their targets' rows (a target outside the table is dropped). -/
def aggRows (msg : FVec F S1700000x128 .f32) (d : IVec S1700000 32) : FVec F S100000x128 .f32 :=
  Host.scatterAdd scatter_S100000x128_S1700000x1_S1700000x128_1_0_0_1 (broadcastInDim S100000x128 ![] bcast_S_S100000x128 (constant S_ .f32 0x00000000#32))
    (colOf d) msg

/-- Mean pooling over the graphs and the linear classifier. -/
def tailOf (h : FVec F S100000x128 .f32) (batch : IVec S100000 32) (Wc : FVec F S128x10 .f32) (bc : FVec F S10 .f32) : FVec F S64x10 .f32 :=
  addf (Host.dotGeneral dot_S64x128_S128x10_S64x10_1_0_0_1_n_n none
      (Host.divf
        (Host.scatterAdd scatter_S64x128_S100000x1_S100000x128_1_0_0_1 (broadcastInDim S64x128 ![] bcast_S_S64x128 (constant S_ .f32 0x00000000#32))
          (broadcastInDim S100000x1 ![0] bcast_S100000_S100000x1_0 batch) h)
        (broadcastInDim S64x128 ![0, 1] bcast_S64x1_S64x128_0_1 (broadcastInDim S64x1 ![0] bcast_S64_S64x1_0
          (maximumf (Host.scatterAdd scatter_S64_S100000x1_S100000_n_0_0_1 (broadcastInDim S64 ![] bcast_S_S64 (constant S_ .f32 0x00000000#32))
              (broadcastInDim S100000x1 ![0] bcast_S100000_S100000x1_0 batch) (broadcastInDim S100000 ![] bcast_S_S100000 (constant S_ .f32 0x3F800000#32)))
            (broadcastInDim S64 ![] bcast_S_S64 (constant S_ .f32 0x3F800000#32))))))
      Wc)
    (broadcastInDim S64x10 ![0, 1] bcast_S1x10_S64x10_0_1 (broadcastInDim S1x10 ![1] bcast_S10_S1x10_1 bc))

/-- The kernel's row read: rows gathered at the wrapped sources, and a fill value on every row whose wrapped
    source lies outside [0, 99999]. -/
def takeRows (t : FVec F S100000x128 .f32) (s : IVec S1700000 32) : FVec F S1700000x128 .f32 :=
  select
    (broadcastInDim S1700000x128 ![0] bcast_S1700000_S1700000x128_0
      (Host.reduce IntOp.andi
        (andi (cmpi .sge (colOf (wrapIdx s)) (broadcastInDim S1700000x1 ![] bcast_S_S1700000x1 (constantI S_ 32 0#32)))
          (cmpi .sle (colOf (wrapIdx s)) (broadcastInDim S1700000x1 ![0, 1] bcast_S1x1_S1700000x1_0_1 (broadcastInDim S1x1 ![1] bcast_S1_S1x1_1 (constantI S1 32 99999#32)))))
        (constantI S_ 1 1#1) reducesTo_S1700000x1_S1700000_d1 h_S_))
    (Host.gather gather_S100000x128_S1700000x1_S1700000x128_1_0_n_n_0_1_1128 t (colOf (wrapIdx s)))
    (broadcastInDim S1700000x128 ![] bcast_S_S1700000x128 (constant S_ .f32 0x7FC00000#32))

/-- The normalisation vector reshaped to a one-column table. -/
def normColK (n : FVec F S1700000 .f32) : FVec F S1700000x1 .f32 := shapeCast _ n shapeCasts_S1700000_S1700000x1

/-- The bias reshaped to a one-row table. -/
def biasRowK (b : FVec F S128 .f32) : FVec F S1x128 .f32 := shapeCast _ b shapeCasts_S128_S1x128

/-- What the scale kernel leaves: every message row times its normalisation. -/
def scaleK (g : FVec F S1700000x128 .f32) (ncol : FVec F S1700000x1 .f32) : FVec F S1700000x128 .f32 :=
  fun i => FloatOps.mulf (g i) (ncol (ValueIdx.ix2 (⟨(i 0).val, (i 0).isLt⟩ : Fin 1700000) (0 : Fin 1)))

/-- What the bias kernel leaves: the row plus the bias, its positive part. -/
def biasReluK (a : FVec F S100000x128 .f32) (brow : FVec F S1x128 .f32) : FVec F S100000x128 .f32 :=
  fun i => FloatOps.maximumf (FloatOps.addf (a i) (brow (ValueIdx.ix2 (0 : Fin 1) (⟨(i 1).val, (i 1).isLt⟩ : Fin 128)))) (FloatOps.ofBits .f32 0x00000000#32)

/-- What a matrix-product kernel leaves over the extended reals: entry (r, q) is Σ_k a[r, k] · w[k, q]. -/
def mmK {K : Nat} (a : FVec Ideal ⟨2, ![100000, K]⟩ .f32) (w : FVec Ideal ⟨2, ![K, 128]⟩ .f32) : FVec Ideal S100000x128 .f32 :=
  fun i => ∑ k : Fin K, a (ValueIdx.ix2 (⟨(i 0).val, (i 0).isLt⟩ : Fin 100000) k) * w (ValueIdx.ix2 k (⟨(i 1).val, (i 1).isLt⟩ : Fin 128))

/-- One layer as the kernel computes it after its dense transform t. -/
def layerK (t : FVec Ideal S100000x128 .f32) (ei : IVec S2x1600000 32) (b : FVec Ideal S128 .f32) : FVec Ideal S100000x128 .f32 :=
  biasReluK (aggRows (scaleK (takeRows t (srcOf ei)) (normColK (normOf ei))) (dstOf ei)) (biasRowK b)

/-- The kernel's program as one function of its arguments, over the extended reals. -/
def kerFun (x : FVec Ideal S100000x64 .f32) (W1 : FVec Ideal S64x128 .f32) (b1 : FVec Ideal S128 .f32) (W2 : FVec Ideal S128x128 .f32) (b2 : FVec Ideal S128 .f32)
    (Wc : FVec Ideal S128x10 .f32) (bc : FVec Ideal S10 .f32) (ei : IVec S2x1600000 32) (batch : IVec S100000 32) : FVec Ideal S64x10 .f32 :=
  tailOf (layerK (mmK (K := 128) (layerK (mmK (K := 64) x W1) ei b1) W2) ei b2) batch Wc bc

end Cert.KernelIdeal.Stages

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.KPre.lean ====
/-
  The buffers the first launch is entered with: the host operations before it leave the message sources, the
  aggregation targets and the normalisation column, each a staged function of the edge list, and write no argument.
-/
import proofs.«426322_j84559316124278_1_alg».proof.Proof.Gen.KernelIdeal.Frame
import proofs.«426322_j84559316124278_1_alg».proof.Proof.StagesK
import proofs.«426322_j84559316124278_1_alg».proof.Proof.LibTRef
import Idealize.ShloMosaic.Lib.StableHlo.Run

set_option maxRecDepth 16384

noncomputable section

namespace Cert.KernelIdeal.KPre

open Cert.KernelIdeal Cert.KernelIdeal.Gen Cert.KernelIdeal.Stages
open Idealize.ShloMosaic Idealize.ShloMosaic.TcCoe Idealize.SL.Sem
open Idealize.ShloMosaic.Pipeline (Dat Cfg Window)

/-! ## One stretch at a time, from any contents

Each stretch of host operations is read from arbitrary contents `V` of the buffers before it: the buffers it computes
as the operations' terms of the buffers it reads, and the buffers it does not write as they were. -/

section Stretches

variable {F : FTy → Type} [FloatOps F] (V : Valuation τ sig (Elt F))

/-- A stretch of host operations leaves a buffer none of them writes as it was: every operation writes one
    buffer, and that buffer is another reference. -/
local macro "unwritten" ops:ident r:ident : tactic =>
  `(tactic| (refine StableHlo.after_of_forall_not_mem (b := Proc.devRef .tc $r:ident) _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The first stretch: sources and targets are the two rows of the edge list, each followed by every node once. -/
theorem first_src : StableHlo.after hostOps0 V (Proc.devRef .tc main_v3) = srcOf (V (Proc.devRef .tc main_arg7)) := by
  after_results
  rfl
theorem first_dst : StableHlo.after hostOps0 V (Proc.devRef .tc main_v6) = dstOf (V (Proc.devRef .tc main_arg7)) := by
  after_results
  rfl
/-- The first stretch: where the in-degree is positive. -/
theorem first_pos : StableHlo.after hostOps0 V (Proc.devRef .tc main_v12)
    = cmpf .ogt (degOf (F := F) (dstOf (V (Proc.devRef .tc main_arg7))))
        (broadcastInDim S100000 ![] bcast_S_S100000 (constant S_ .f32 0x00000000#32)) := by
  after_results
  rfl
/-- The first stretch: the inverse square root of the in-degree kept away from zero. -/
theorem first_rsqrt : StableHlo.after hostOps0 V (Proc.devRef .tc main_v15)
    = Host.rsqrt (maximumf (degOf (F := F) (dstOf (V (Proc.devRef .tc main_arg7))))
        (broadcastInDim S100000 ![] bcast_S_S100000 (constant S_ .f32 0x2B8CBCCC#32))) := by
  after_results
  rfl
/-- The first stretch: the zero the selection falls back to. -/
theorem first_zero : StableHlo.after hostOps0 V (Proc.devRef .tc main_cst_3) = constant (F := F) S_ .f32 0x00000000#32 := by
  after_results

/-- The second stretch, the selection: the inverse square root where the in-degree is positive, else zero. Its
    operations are stated through typed references; carrying a value to a reference's buffer type and back is the
    identity. -/
theorem second_dinv : StableHlo.after hostOps0_1 V (Proc.devRef .tc main_v16)
    = select (V (Proc.devRef .tc main_v12)) (V (Proc.devRef .tc main_v15))
        (broadcastInDim S100000 ![] bcast_S_S100000 (id (V (Proc.devRef .tc main_cst_3)))) := by
  after_results
  simp only [StableHlo.TRef.ofBuf, StableHlo.TRef.toBuf, cast_eq]
theorem second_src : StableHlo.after hostOps0_1 V (Proc.devRef .tc main_v3) = V (Proc.devRef .tc main_v3) := by
  unwritten hostOps0_1 main_v3
theorem second_dst : StableHlo.after hostOps0_1 V (Proc.devRef .tc main_v6) = V (Proc.devRef .tc main_v6) := by
  unwritten hostOps0_1 main_v6

/-- The third stretch: the product of the two gathered factors, as one column. -/
theorem third_norm : StableHlo.after hostOps0_2 V (Proc.devRef .tc main_v32)
    = normColK (mulf
        (Host.gather gather_S100000_S1700000x1_S1700000_n_0_n_n_0_1_1 (V (Proc.devRef .tc main_v16))
          (colOf (wrapIdx (V (Proc.devRef .tc main_v3)))))
        (Host.gather gather_S100000_S1700000x1_S1700000_n_0_n_n_0_1_1 (V (Proc.devRef .tc main_v16))
          (colOf (wrapIdx (V (Proc.devRef .tc main_v6)))))) := by
  after_results_simp
  rfl
theorem third_src : StableHlo.after hostOps0_2 V (Proc.devRef .tc main_v3) = V (Proc.devRef .tc main_v3) := by
  unwritten hostOps0_2 main_v3
theorem third_dst : StableHlo.after hostOps0_2 V (Proc.devRef .tc main_v6) = V (Proc.devRef .tc main_v6) := by
  unwritten hostOps0_2 main_v6

/-! ## The three stretches in a row -/

variable (m : (ℓ : Loc nD τ sig) → Buf (Elt F) ℓ) (ρ : Dev nD → PrngReg)

theorem src_any (c : Dev nD) : W3 m ρ c (Proc.devRef .tc main_v3) = srcOf (m ((c.tc : Thread nD τ).loc main_arg7)) :=
  calc W3 m ρ c (Proc.devRef .tc main_v3)
    _ = W2 m ρ c (Proc.devRef .tc main_v3) := third_src _
    _ = W1 m ρ c (Proc.devRef .tc main_v3) := second_src _
    _ = srcOf (W0 m ρ c (Proc.devRef .tc main_arg7)) := first_src _
    _ = srcOf (m ((c.tc : Thread nD τ).loc main_arg7)) := rfl

theorem dst_any (c : Dev nD) : W3 m ρ c (Proc.devRef .tc main_v6) = dstOf (m ((c.tc : Thread nD τ).loc main_arg7)) :=
  calc W3 m ρ c (Proc.devRef .tc main_v6)
    _ = W2 m ρ c (Proc.devRef .tc main_v6) := third_dst _
    _ = W1 m ρ c (Proc.devRef .tc main_v6) := second_dst _
    _ = dstOf (W0 m ρ c (Proc.devRef .tc main_arg7)) := first_dst _
    _ = dstOf (m ((c.tc : Thread nD τ).loc main_arg7)) := rfl

/-- The inverse square roots of the in-degrees, after the second stretch. -/
theorem dinv_any (c : Dev nD) :
    W2 m ρ c (Proc.devRef .tc main_v16) = dinvOf (degOf (F := F) (dstOf (m ((c.tc : Thread nD τ).loc main_arg7)))) := by
  show StableHlo.after hostOps0_1 (W1 m ρ c) (Proc.devRef .tc main_v16) = _
  rw [second_dinv]
  show select (StableHlo.after hostOps0 (W0 m ρ c) (Proc.devRef .tc main_v12))
      (StableHlo.after hostOps0 (W0 m ρ c) (Proc.devRef .tc main_v15))
      (broadcastInDim S100000 ![] bcast_S_S100000 (id (StableHlo.after hostOps0 (W0 m ρ c) (Proc.devRef .tc main_cst_3)))) = _
  rw [first_pos, first_rsqrt, first_zero]
  rfl

theorem norm_any (c : Dev nD) :
    W3 m ρ c (Proc.devRef .tc main_v32) = normColK (normOf (F := F) (m ((c.tc : Thread nD τ).loc main_arg7))) := by
  show StableHlo.after hostOps0_2 (W2 m ρ c) (Proc.devRef .tc main_v32) = _
  rw [third_norm, dinv_any]
  have hs : W2 m ρ c (Proc.devRef .tc main_v3) = srcOf (m ((c.tc : Thread nD τ).loc main_arg7)) :=
    (second_src _).trans ((first_src _).trans rfl)
  have hd : W2 m ρ c (Proc.devRef .tc main_v6) = dstOf (m ((c.tc : Thread nD τ).loc main_arg7)) :=
    (second_dst _).trans ((first_dst _).trans rfl)
  rw [hs, hd]
  rfl

theorem arg0_any (c : Dev nD) : W3 m ρ c (Proc.devRef .tc main_arg0) = m ((c.tc : Thread nD τ).loc main_arg0) :=
  calc W3 m ρ c (Proc.devRef .tc main_arg0)
    _ = W2 m ρ c (Proc.devRef .tc main_arg0) := by unwritten hostOps0_2 main_arg0
    _ = W1 m ρ c (Proc.devRef .tc main_arg0) := by unwritten hostOps0_1 main_arg0
    _ = W0 m ρ c (Proc.devRef .tc main_arg0) := by unwritten hostOps0 main_arg0
    _ = m ((c.tc : Thread nD τ).loc main_arg0) := rfl

theorem arg1_any (c : Dev nD) : W3 m ρ c (Proc.devRef .tc main_arg1) = m ((c.tc : Thread nD τ).loc main_arg1) :=
  calc W3 m ρ c (Proc.devRef .tc main_arg1)
    _ = W2 m ρ c (Proc.devRef .tc main_arg1) := by unwritten hostOps0_2 main_arg1
    _ = W1 m ρ c (Proc.devRef .tc main_arg1) := by unwritten hostOps0_1 main_arg1
    _ = W0 m ρ c (Proc.devRef .tc main_arg1) := by unwritten hostOps0 main_arg1
    _ = m ((c.tc : Thread nD τ).loc main_arg1) := rfl

theorem arg2_any (c : Dev nD) : W3 m ρ c (Proc.devRef .tc main_arg2) = m ((c.tc : Thread nD τ).loc main_arg2) :=
  calc W3 m ρ c (Proc.devRef .tc main_arg2)
    _ = W2 m ρ c (Proc.devRef .tc main_arg2) := by unwritten hostOps0_2 main_arg2
    _ = W1 m ρ c (Proc.devRef .tc main_arg2) := by unwritten hostOps0_1 main_arg2
    _ = W0 m ρ c (Proc.devRef .tc main_arg2) := by unwritten hostOps0 main_arg2
    _ = m ((c.tc : Thread nD τ).loc main_arg2) := rfl

theorem arg3_any (c : Dev nD) : W3 m ρ c (Proc.devRef .tc main_arg3) = m ((c.tc : Thread nD τ).loc main_arg3) :=
  calc W3 m ρ c (Proc.devRef .tc main_arg3)
    _ = W2 m ρ c (Proc.devRef .tc main_arg3) := by unwritten hostOps0_2 main_arg3
    _ = W1 m ρ c (Proc.devRef .tc main_arg3) := by unwritten hostOps0_1 main_arg3
    _ = W0 m ρ c (Proc.devRef .tc main_arg3) := by unwritten hostOps0 main_arg3
    _ = m ((c.tc : Thread nD τ).loc main_arg3) := rfl

theorem arg4_any (c : Dev nD) : W3 m ρ c (Proc.devRef .tc main_arg4) = m ((c.tc : Thread nD τ).loc main_arg4) :=
  calc W3 m ρ c (Proc.devRef .tc main_arg4)
    _ = W2 m ρ c (Proc.devRef .tc main_arg4) := by unwritten hostOps0_2 main_arg4
    _ = W1 m ρ c (Proc.devRef .tc main_arg4) := by unwritten hostOps0_1 main_arg4
    _ = W0 m ρ c (Proc.devRef .tc main_arg4) := by unwritten hostOps0 main_arg4
    _ = m ((c.tc : Thread nD τ).loc main_arg4) := rfl

theorem arg5_any (c : Dev nD) : W3 m ρ c (Proc.devRef .tc main_arg5) = m ((c.tc : Thread nD τ).loc main_arg5) :=
  calc W3 m ρ c (Proc.devRef .tc main_arg5)
    _ = W2 m ρ c (Proc.devRef .tc main_arg5) := by unwritten hostOps0_2 main_arg5
    _ = W1 m ρ c (Proc.devRef .tc main_arg5) := by unwritten hostOps0_1 main_arg5
    _ = W0 m ρ c (Proc.devRef .tc main_arg5) := by unwritten hostOps0 main_arg5
    _ = m ((c.tc : Thread nD τ).loc main_arg5) := rfl

theorem arg6_any (c : Dev nD) : W3 m ρ c (Proc.devRef .tc main_arg6) = m ((c.tc : Thread nD τ).loc main_arg6) :=
  calc W3 m ρ c (Proc.devRef .tc main_arg6)
    _ = W2 m ρ c (Proc.devRef .tc main_arg6) := by unwritten hostOps0_2 main_arg6
    _ = W1 m ρ c (Proc.devRef .tc main_arg6) := by unwritten hostOps0_1 main_arg6
    _ = W0 m ρ c (Proc.devRef .tc main_arg6) := by unwritten hostOps0 main_arg6
    _ = m ((c.tc : Thread nD τ).loc main_arg6) := rfl

theorem arg8_any (c : Dev nD) : W3 m ρ c (Proc.devRef .tc main_arg8) = m ((c.tc : Thread nD τ).loc main_arg8) :=
  calc W3 m ρ c (Proc.devRef .tc main_arg8)
    _ = W2 m ρ c (Proc.devRef .tc main_arg8) := by unwritten hostOps0_2 main_arg8
    _ = W1 m ρ c (Proc.devRef .tc main_arg8) := by unwritten hostOps0_1 main_arg8
    _ = W0 m ρ c (Proc.devRef .tc main_arg8) := by unwritten hostOps0 main_arg8
    _ = m ((c.tc : Thread nD τ).loc main_arg8) := rfl

end Stretches

/-! ## Over the extended reals -/

variable (m : (ℓ : Loc nD τ sig) → Buf (Elt Ideal) ℓ) (ρ : Dev nD → PrngReg)

/-- The message sources at the first launch's entry. -/
theorem src (c : Dev nD) : W3 (F := Ideal) m ρ c (Proc.devRef .tc main_v3) = srcOf (m ((c.tc : Thread nD τ).loc main_arg7)) :=
  src_any m ρ c

/-- The aggregation targets at the first launch's entry. -/
theorem dst (c : Dev nD) : W3 (F := Ideal) m ρ c (Proc.devRef .tc main_v6) = dstOf (m ((c.tc : Thread nD τ).loc main_arg7)) :=
  dst_any m ρ c

/-- The normalisation column at the first launch's entry. -/
theorem norm (c : Dev nD) : W3 (F := Ideal) m ρ c (Proc.devRef .tc main_v32) = normColK (normOf (F := Ideal) (m ((c.tc : Thread nD τ).loc main_arg7))) :=
  norm_any m ρ c

/-- No host operation before the first launch writes an argument. -/
theorem arg0 (c : Dev nD) : W3 (F := Ideal) m ρ c (Proc.devRef .tc main_arg0) = (m ((c.tc : Thread nD τ).loc main_arg0)) :=
  arg0_any m ρ c
theorem arg1 (c : Dev nD) : W3 (F := Ideal) m ρ c (Proc.devRef .tc main_arg1) = (m ((c.tc : Thread nD τ).loc main_arg1)) :=
  arg1_any m ρ c
theorem arg2 (c : Dev nD) : W3 (F := Ideal) m ρ c (Proc.devRef .tc main_arg2) = (m ((c.tc : Thread nD τ).loc main_arg2)) :=
  arg2_any m ρ c
theorem arg3 (c : Dev nD) : W3 (F := Ideal) m ρ c (Proc.devRef .tc main_arg3) = (m ((c.tc : Thread nD τ).loc main_arg3)) :=
  arg3_any m ρ c
theorem arg4 (c : Dev nD) : W3 (F := Ideal) m ρ c (Proc.devRef .tc main_arg4) = (m ((c.tc : Thread nD τ).loc main_arg4)) :=
  arg4_any m ρ c
theorem arg5 (c : Dev nD) : W3 (F := Ideal) m ρ c (Proc.devRef .tc main_arg5) = (m ((c.tc : Thread nD τ).loc main_arg5)) :=
  arg5_any m ρ c
theorem arg6 (c : Dev nD) : W3 (F := Ideal) m ρ c (Proc.devRef .tc main_arg6) = (m ((c.tc : Thread nD τ).loc main_arg6)) :=
  arg6_any m ρ c
theorem arg8 (c : Dev nD) : W3 (F := Ideal) m ρ c (Proc.devRef .tc main_arg8) = (m ((c.tc : Thread nD τ).loc main_arg8)) :=
  arg8_any m ρ c

end Cert.KernelIdeal.KPre

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Region0.lean ====
/-
  Launch 0 (the first dense transform x·W1): what its output array holds when the pipeline has run over the whole grid, as one function
  of the two input arrays as the launch finds them.

  The grid has 20 points; point t reads rows 5000·t … 5000·t + 4999 of the left array and the whole 64×128 weight matrix,
  and writes rows 5000·t … 5000·t + 4999 of the output. Over the extended reals a change of float format is the identity
  and the product into a zero accumulator is the exact sum, so entry (r, q) of the block written at point t is
  Σ_k a[5000·t + r, k] · w[k, q]: the block is the restriction of ONE whole-array function, and the twenty row blocks
  cover the array (row r lies in the block of point r / 5000).
-/
import proofs.«426322_j84559316124278_1_alg».proof.Proof.Gen.KernelIdeal.Frame
import proofs.«426322_j84559316124278_1_alg».proof.Proof.StagesK
import proofs.«426322_j84559316124278_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's loads and its store start at row 0, column 0 of their blocks. -/
theorem zero_offsets : (![0, 0] : Fin 2 → Nat) = fun _ => 0 := funext fun a => by fin_cases a <;> rfl

/-- One entry of the body's product: entry (r, q) is Σ_k a[r, k] · w[k, q]. The two roundings to the narrower
    format are the identity over the extended reals (so is a reshape to the same shape, where the body has one),
    and the accumulator is zero. -/
theorem product_entry (a : Vec Ideal S5000x64 .f32) (w : Vec Ideal S64x128 .f32) (r : Fin 5000) (q : Fin 128) :
    k0_pay1 a w (ix2 r q) = ∑ k : Fin 64, a (ix2 r k) * w (ix2 k q) := by
  unfold k0_pay1
  try rw [shapeCast_self]
  exact Cert.LibPlainDot.matmul_plain_apply 5000 64 128 none a w r q

/-- The block indices at grid point t: the left array's and the output's row block is t, their column block 0;
    the weight matrix is one block, at (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of row block n of A with W, at entry j of the block, is the whole product at the entry i of the
    array that j sits at: row 5000·n + j₀, column j₁. -/
theorem block_product_entry (A : Vec Ideal S100000x64 .f32) (W : Vec Ideal S64x128 .f32)
    (x0 : Vec Ideal S5000x64 .f32) (x1 : Vec Ideal S64x128 .f32) (n : Nat)
    (h0 : ∀ (y : S5000x64.Idx) (i : S100000x64.Idx), (i 0).val = n * 5000 + (y 0).val → (i 1).val = (y 1).val → x0 y = A i)
    (h1 : x1 = W)
    (j : S5000x128.Idx) (i : S100000x128.Idx) (hi0 : (i 0).val = n * 5000 + (j 0).val) (hi1 : (i 1).val = (j 1).val) :
    k0_pay1 x0 x1 j = mmK (K := 64) A W i := by
  obtain ⟨p, q, rfl⟩ : ∃ (p : Fin 5000) (q : Fin 128), j = ix2 p q := ⟨j 0, j 1, eq_ix2 j⟩
  rw [product_entry]
  subst h1
  show _ = ∑ k : Fin 64, A (ix2 ⟨(i 0).val, (i 0).isLt⟩ k) * x1 (ix2 k ⟨(i 1).val, (i 1).isLt⟩)
  refine Finset.sum_congr rfl fun k _ => ?_
  congr 1
  · exact h0 (ix2 p k) _ hi0 rfl
  · congr 1
    funext a
    apply Fin.ext
    match a with
    | ⟨0, _⟩ => rfl
    | ⟨1, _⟩ => exact hi1.symm

/-- The left window's block at point t is rows 5000·t … 5000·t + 4999 of the left array. -/
theorem row_block_apply (c : Dev nD) (t : Fin cfg0.N) (y : S5000x64.Idx) (i : S100000x64.Idx)
    (h0 : (i 0).val = t.val * 5000 + (y 0).val) (h1 : (i 1).val = (y 1).val) :
    (iblk0 V c 0 t : Vec Ideal S5000x64 .f32) y = (V c main_arg0 : S100000x64.Idx → Elt Ideal .f32) i := by
  obtain ⟨e0, e1, -⟩ := block_indices t
  unfold iblk0
  rw [View.read_apply]
  show V c main_arg0 _ = V c main_arg0 _
  congr 1
  funext a; apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The weight window's block at every point is the whole weight matrix. -/
theorem weight_block_eq (c : Dev nD) (t : Fin cfg0.N) :
    (iblk0 V c 1 t : Vec Ideal S64x128 .f32) = (V c main_arg1 : S64x128.Idx → Elt Ideal .f32) := by
  obtain ⟨-, -, e2, e3, -⟩ := block_indices t
  funext y
  unfold iblk0
  rw [View.read_apply]
  show V c main_arg1 _ = V c main_arg1 _
  congr 1
  funext a; apply Fin.ext
  match a with
  | ⟨0, _⟩ => show win0_1.index t 0 * 64 + 1 * (y 0).val = (y 0).val; rw [e2]; omega
  | ⟨1, _⟩ => show win0_1.index t 1 * 128 + 1 * (y 1).val = (y 1).val; rw [e3]; omega

/-- What point t writes back is block t of the whole product of the two arrays as the launch finds them. -/
theorem written_block_eq (c : Dev nD) (t : Fin cfg0.N) :
    (dat0 V c).flushed 2 t = ((cfg0.win 2).blk t).view.read (Elt Ideal) (mmK (K := 64) (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x128) zero_offsets]
  obtain ⟨-, -, -, -, e4, e5⟩ := block_indices t
  funext j
  show k0_pay1 (iblk0 V c 0 t) (iblk0 V c 1 t) j = mmK (K := 64) (V c main_arg0) (V c main_arg1) (((cfg0.win 2).blk t).view.emb j)
  refine block_product_entry (V c main_arg0) (V c main_arg1) (iblk0 V c 0 t) (iblk0 V c 1 t) t.val (fun y i h0 h1 => row_block_apply V c t y i h0 h1) (weight_block_eq V c t) j (((cfg0.win 2).blk t).view.emb j) ?_ ?_
  · show win0_2.index t 0 * 5000 + 1 * (j 0).val = t.val * 5000 + (j 0).val
    rw [e4]; omega
  · show win0_2.index t 1 * 128 + 1 * (j 1).val = (j 1).val
    rw [e5]; omega

/-- An entry of the output array is in point t's block iff each coordinate is in the block's range on its axis. -/
theorem mem_row_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every entry of the output array is written: row r lies in the block of point r / 5000, which is written back. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  rw [mem_row_block]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- The output array after the last grid point. -/
theorem value (c : Dev nD) :
    (dat0 (F := Ideal) V c).arrAt 2 cfg0.N = mmK (K := 64) (V c main_arg0) (V c main_arg1) :=
  (dat0 V c).arrAt_eq_of_cover 2 (mmK (K := 64) (V c main_arg0) (V c main_arg1)) (fun t _ => written_block_eq V c t) rows_covered

end Cert.KernelIdeal.Region0

end
-- ==== Proof.Region1.lean ====
/-
  Launch 1 (the first layer's message scaling): what its output array holds when the pipeline has run over the whole grid, as one function
  of the two input arrays as the launch finds them.

  The grid has 170 points; point t works on rows 10000·t … 10000·t + 9999. Its output block is the gathered block [10000,128]
  times the normalisation block [10000,1] spread along the 128 features, so entry (p, q) of the block is
  gathered(10000·t + p, q) · norm(10000·t + p, 0): block t of the row scaling of the whole arrays. The blocks of the
  170 points tile the 1700000 rows (row r lies in the block of point r / 10000), so the array ends at the row scaling.
-/
import proofs.«426322_j84559316124278_1_alg».proof.Proof.Gen.KernelIdeal.Frame
import proofs.«426322_j84559316124278_1_alg».proof.Proof.StagesK
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body loads and stores its whole blocks: both offsets are zero. -/
theorem zero_off : (![0, 0] : Fin 2 → Nat) = fun _ => 0 := funext fun a => by fin_cases a <;> rfl

/-- The three index maps over the grid: at point t every window's block is block (t, 0) of its array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's arithmetic at entry (p, q) of the block: the gathered entry times its row's normalisation
    (the two shape casts are identities; the spread along the features reads column 0 of row p). -/
theorem pay_apply (x0 : FVec Ideal S10000x128 .f32) (x1 : FVec Ideal S10000x1 .f32) (p : Fin 10000) (q : Fin 128) :
    k1_pay1 x0 x1 (ix2 p q) = FloatOps.mulf (x0 (ix2 p q)) (x1 (ix2 p (0 : Fin 1))) := by
  unfold k1_pay1
  rw [shapeCast_self, shapeCast_self]
  show FloatOps.mulf (x0 (ix2 p q)) (broadcastTo S10000x128 x1 broadcasts_S10000x1_S10000x128 (ix2 p q)) = _
  rw [broadcastTo_apply x1 broadcasts_S10000x1_S10000x128 (ix2 p q) (ix2 p (0 : Fin 1)) (fun a => by
    match a with
    | ⟨0, _⟩ => rfl
    | ⟨1, _⟩ => rfl)]

/-- Entry j of the body's result is the row scaling of the whole arrays at array index i, as soon as the gathered
    block at j is the gathered array at i and the normalisation block at the head of j's row is the normalisation
    array at the head of i's row. -/
theorem block_scale (g : FVec Ideal S1700000x128 .f32) (n : FVec Ideal S1700000x1 .f32)
    (x0 : FVec Ideal S10000x128 .f32) (x1 : FVec Ideal S10000x1 .f32)
    (j : S10000x128.Idx) (i : S1700000x128.Idx)
    (h0 : x0 j = g i)
    (h1 : x1 (ix2 (⟨(j 0).val, idx2_lt0 j⟩ : Fin 10000) (0 : Fin 1)) = n (ix2 (⟨(i 0).val, (i 0).isLt⟩ : Fin 1700000) (0 : Fin 1))) :
    k1_pay1 x0 x1 j = scaleK g n i := by
  obtain ⟨p, q, rfl⟩ : ∃ (p : Fin 10000) (q : Fin 128), j = ix2 p q := ⟨j 0, j 1, eq_ix2 j⟩
  rw [pay_apply, h0]
  exact congrArg _ h1

/-- What point t writes back is block t of the row scaling of the two input arrays: entry (p, q) of each of the
    three blocks sits at row 10000·t + p of its array, the gathered and the output blocks at column q, the
    normalisation block at column 0. -/
theorem flushed_eq (c : Dev nD) (t : Fin cfg1.N) :
    (dat1 (F := Ideal) V c).flushed 2 t = ((cfg1.win 2).blk t).view.read (Elt Ideal) (scaleK (F := Ideal) (V c main_v34) (V c main_v32)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S10000x1) zero_off]
  obtain ⟨e00, e01, e10, e11, e20, e21⟩ := idx_facts t
  funext j
  show k1_pay1 (iblk1 V c 0 t) (iblk1 V c 1 t) j = scaleK (V c main_v34) (V c main_v32) (((cfg1.win 2).blk t).view.emb j)
  refine block_scale _ _ _ _ j _ ?_ ?_
  · show V c main_v34 (((cfg1.win 0).blk t).view.emb j) = V c main_v34 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v32 (((cfg1.win 1).blk t).view.emb (ix2 (⟨(j 0).val, idx2_lt0 j⟩ : Fin 10000) (0 : Fin 1))) = _
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An array index lies in point t's output block iff each coordinate lies in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v35).slice (win1_2.rect t)).set ↔ _
  rw [View.set_slice_whole, Rect.mem_set_unit]
  exact Iff.rfl

/-- The output blocks tile the array: row r lies in the block of point r / 10000 (1700000 = 170 · 10000), and
    every point writes its block back. -/
theorem cover (i : S1700000x128.Idx) :
    ∃ t : Fin cfg1.N, (cfg1.win 2).flush t = true ∧ i ∈ ((cfg1.win 2).blk t).view.set := by
  have hi0 : (i 0).val < 1700000 := idx2_lt0 i
  have hi1 : (i 1).val < 128 := idx2_lt1 i
  have hN : cfg1.N = 170 := N_1
  let t : Fin cfg1.N := ⟨(i 0).val / 10000, by rw [hN]; omega⟩
  obtain ⟨e00, e01, e10, e11, e20, e21⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the last grid point. -/
theorem value (c : Dev nD) :
    (dat1 (F := Ideal) V c).arrAt 2 cfg1.N = scaleK (F := Ideal) (V c main_v34) (V c main_v32) := by
  exact (dat1 (F := Ideal) V c).arrAt_eq_of_cover 2 (scaleK (F := Ideal) (V c main_v34) (V c main_v32))
    (fun t _ => flushed_eq V c t) cover

end Cert.KernelIdeal.Region1

end
-- ==== Proof.Region2.lean ====
/-
  Launch 2 (the first layer's bias and positive part): what its output array holds when the pipeline has run over the whole grid, as one function
  of the two input arrays as the launch finds them.
-/
import proofs.«426322_j84559316124278_1_alg».proof.Proof.Gen.KernelIdeal.Frame
import proofs.«426322_j84559316124278_1_alg».proof.Proof.StagesK
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block offsets of a whole-buffer access are all zero. -/
theorem offsets_zero : (![0, 0] : Fin 2 → Nat) = fun _ => 0 := funext fun a => by fin_cases a <;> rfl

/-- The body's arithmetic at one entry of its block: the entry plus the bias of its column, then the positive part. -/
theorem pay_apply (x0 : Vec Ideal S5000x128 .f32) (x1 : Vec Ideal S1x128 .f32) (p : Fin 5000) (q : Fin 128) :
    k2_pay1 (F := Ideal) x0 x1 (ix2 p q)
      = FloatOps.maximumf (FloatOps.addf (x0 (ix2 p q)) (x1 (ix2 (0 : Fin 1) q))) (FloatOps.ofBits .f32 0x00000000#32) := by
  unfold k2_pay1
  rw [shapeCast_self, shapeCast_self]
  show FloatOps.maximumf (FloatOps.addf (x0 (ix2 p q))
    (broadcastTo (α := Ideal .f32) S5000x128 x1 broadcasts_S1x128_S5000x128 (ix2 p q))) _ = _
  rw [broadcastTo_1b_ab_apply]
  rfl

/-- One entry of the block the body leaves is the whole-array function at the array index `i`, as soon as the
    row block's entry is the array's at `i`, the column is `i`'s, and the bias block is the bias row. -/
theorem block_entry (a : FVec Ideal S100000x128 .f32) (b : FVec Ideal S1x128 .f32)
    (x0 : Vec Ideal S5000x128 .f32) (x1 : Vec Ideal S1x128 .f32) (p : Fin 5000) (q : Fin 128) (i : S100000x128.Idx)
    (h0 : x0 (ix2 p q) = a i) (h1 : (i 1).val = q.val)
    (hb : ∀ q : Fin 128, x1 (ix2 (0 : Fin 1) q) = b (ix2 (0 : Fin 1) q)) :
    k2_pay1 (F := Ideal) x0 x1 (ix2 p q) = biasReluK (F := Ideal) a b i := by
  rw [pay_apply, h0, hb]
  obtain rfl : q = ⟨(i 1).val, (i 1).isLt⟩ := Fin.ext h1.symm
  rfl

/-- The printed index maps over the grid: the row windows sit at block (t, 0), the bias window at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array function of the two input arrays. -/
theorem flushed_eq (c : Dev nD) (t : Fin cfg2.N) :
    (dat2 (F := Ideal) V c).flushed 2 t
      = ((cfg2.win 2).blk t).view.read (Elt Ideal) (biasReluK (F := Ideal) (V c main_v38) (V c main_v39)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S1x128) offsets_zero]
  obtain ⟨e00, e01, e10, e11, e20, e21⟩ := idx_facts t
  funext j
  obtain ⟨p, q, rfl⟩ : ∃ (p : Fin 5000) (q : Fin 128), j = ix2 p q := ⟨j 0, j 1, eq_ix2 (n0 := 5000) (n1 := 128) j⟩
  refine block_entry (V c main_v38) (V c main_v39) (iblk2 V c 0 t) (iblk2 V c 1 t) p q (((cfg2.win 2).blk t).view.emb (ix2 p q)) ?_ ?_ ?_
  · show V c main_v38 (((cfg2.win 0).blk t).view.emb (ix2 p q)) = V c main_v38 (((cfg2.win 2).blk t).view.emb (ix2 p q))
    refine congrArg _ (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  · show win2_2.index t (1 : Fin 2) * 128 + 1 * q.val = q.val
    omega
  · intro q
    show V c main_v39 (((cfg2.win 1).blk t).view.emb (ix2 (0 : Fin 1) q)) = V c main_v39 (ix2 (0 : Fin 1) q)
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega

/-- An array index is in point `t`'s output block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v40).slice (win2_2.rect t)).set ↔ _
  rw [View.set_slice_whole, Rect.mem_set_unit]
  exact Iff.rfl

/-- Row `r` of the array lies in the block of point `r / 5000`: the twenty blocks tile the array. -/
theorem cover (i : S100000x128.Idx) :
    ∃ t : Fin cfg2.N, (cfg2.win 2).flush t = true ∧ i ∈ ((cfg2.win 2).blk t).view.set := by
  have h0 : (i 0).val < 100000 := (i 0).isLt
  have h1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e20, e21⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the last grid point. -/
theorem value (c : Dev nD) :
    (dat2 (F := Ideal) V c).arrAt 2 cfg2.N = biasReluK (F := Ideal) (V c main_v38) (V c main_v39) :=
  (dat2 V c).arrAt_eq_of_cover 2 _ (fun t _ => flushed_eq V c t) cover

end Cert.KernelIdeal.Region2

end
-- ==== Proof.Region3.lean ====
/-
  Launch 3 (the second dense transform h·W2): what its output array holds when the pipeline has run over the whole grid, as one function
  of the two input arrays as the launch finds them.

  The grid has 20 points; point t reads rows 5000·t … 5000·t + 4999 of the left array and the whole 128×128 weight matrix,
  and writes rows 5000·t … 5000·t + 4999 of the output. Over the extended reals a change of float format is the identity
  and the product into a zero accumulator is the exact sum, so entry (r, q) of the block written at point t is
  Σ_k a[5000·t + r, k] · w[k, q]: the block is the restriction of ONE whole-array function, and the twenty row blocks
  cover the array (row r lies in the block of point r / 5000).
-/
import proofs.«426322_j84559316124278_1_alg».proof.Proof.Gen.KernelIdeal.Frame
import proofs.«426322_j84559316124278_1_alg».proof.Proof.StagesK
import proofs.«426322_j84559316124278_1_alg».proof.Proof.LibPlainDot
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body's loads and its store start at row 0, column 0 of their blocks. -/
theorem zero_offsets : (![0, 0] : Fin 2 → Nat) = fun _ => 0 := funext fun a => by fin_cases a <;> rfl

/-- One entry of the body's product: entry (r, q) is Σ_k a[r, k] · w[k, q]. The two roundings to the narrower
    format are the identity over the extended reals (so is a reshape to the same shape, where the body has one),
    and the accumulator is zero. -/
theorem product_entry (a : Vec Ideal S5000x128 .f32) (w : Vec Ideal S128x128 .f32) (r : Fin 5000) (q : Fin 128) :
    k3_pay1 a w (ix2 r q) = ∑ k : Fin 128, a (ix2 r k) * w (ix2 k q) := by
  unfold k3_pay1
  try rw [shapeCast_self]
  exact Cert.LibPlainDot.matmul_plain_apply 5000 128 128 none a w r q

/-- The block indices at grid point t: the left array's and the output's row block is t, their column block 0;
    the weight matrix is one block, at (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The product of row block n of A with W, at entry j of the block, is the whole product at the entry i of the
    array that j sits at: row 5000·n + j₀, column j₁. -/
theorem block_product_entry (A : Vec Ideal S100000x128 .f32) (W : Vec Ideal S128x128 .f32)
    (x0 : Vec Ideal S5000x128 .f32) (x1 : Vec Ideal S128x128 .f32) (n : Nat)
    (h0 : ∀ (y : S5000x128.Idx) (i : S100000x128.Idx), (i 0).val = n * 5000 + (y 0).val → (i 1).val = (y 1).val → x0 y = A i)
    (h1 : x1 = W)
    (j : S5000x128.Idx) (i : S100000x128.Idx) (hi0 : (i 0).val = n * 5000 + (j 0).val) (hi1 : (i 1).val = (j 1).val) :
    k3_pay1 x0 x1 j = mmK (K := 128) A W i := by
  obtain ⟨p, q, rfl⟩ : ∃ (p : Fin 5000) (q : Fin 128), j = ix2 p q := ⟨j 0, j 1, eq_ix2 j⟩
  rw [product_entry]
  subst h1
  show _ = ∑ k : Fin 128, A (ix2 ⟨(i 0).val, (i 0).isLt⟩ k) * x1 (ix2 k ⟨(i 1).val, (i 1).isLt⟩)
  refine Finset.sum_congr rfl fun k _ => ?_
  congr 1
  · exact h0 (ix2 p k) _ hi0 rfl
  · congr 1
    funext a
    apply Fin.ext
    match a with
    | ⟨0, _⟩ => rfl
    | ⟨1, _⟩ => exact hi1.symm

/-- The left window's block at point t is rows 5000·t … 5000·t + 4999 of the left array. -/
theorem row_block_apply (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v40 : S100000x128.Idx → Elt Ideal .f32) i := by
  obtain ⟨e0, e1, -⟩ := block_indices t
  unfold iblk3
  rw [View.read_apply]
  show V c main_v40 _ = V c main_v40 _
  congr 1
  funext a; apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The weight window's block at every point is the whole weight matrix. -/
theorem weight_block_eq (c : Dev nD) (t : Fin cfg3.N) :
    (iblk3 V c 1 t : Vec Ideal S128x128 .f32) = (V c main_arg3 : S128x128.Idx → Elt Ideal .f32) := by
  obtain ⟨-, -, e2, e3, -⟩ := block_indices t
  funext y
  unfold iblk3
  rw [View.read_apply]
  show V c main_arg3 _ = V c main_arg3 _
  congr 1
  funext a; apply Fin.ext
  match a with
  | ⟨0, _⟩ => show win3_1.index t 0 * 128 + 1 * (y 0).val = (y 0).val; rw [e2]; omega
  | ⟨1, _⟩ => show win3_1.index t 1 * 128 + 1 * (y 1).val = (y 1).val; rw [e3]; omega

/-- What point t writes back is block t of the whole product of the two arrays as the launch finds them. -/
theorem written_block_eq (c : Dev nD) (t : Fin cfg3.N) :
    (dat3 V c).flushed 2 t = ((cfg3.win 2).blk t).view.read (Elt Ideal) (mmK (K := 128) (V c main_v40) (V c main_arg3)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  obtain ⟨-, -, -, -, e4, e5⟩ := block_indices t
  funext j
  show k3_pay1 (iblk3 V c 0 t) (iblk3 V c 1 t) j = mmK (K := 128) (V c main_v40) (V c main_arg3) (((cfg3.win 2).blk t).view.emb j)
  refine block_product_entry (V c main_v40) (V c main_arg3) (iblk3 V c 0 t) (iblk3 V c 1 t) t.val (fun y i h0 h1 => row_block_apply V c t y i h0 h1) (weight_block_eq V c t) j (((cfg3.win 2).blk t).view.emb j) ?_ ?_
  · show win3_2.index t 0 * 5000 + 1 * (j 0).val = t.val * 5000 + (j 0).val
    rw [e4]; omega
  · show win3_2.index t 1 * 128 + 1 * (j 1).val = (j 1).val
    rw [e5]; omega

/-- An entry of the output array is in point t's block iff each coordinate is in the block's range on its axis. -/
theorem mem_row_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v41).slice (win3_2.rect t)).set ↔ _
  rw [View.set_slice_whole, Rect.mem_set_unit]
  exact Iff.rfl

/-- Every entry of the output array is written: row r lies in the block of point r / 5000, which is written back. -/
theorem rows_covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e4, e5⟩ := block_indices t
  refine ⟨t, flush3_2 t, ?_⟩
  rw [mem_row_block]
  intro a
  match a with
  | ⟨0, _⟩ =>
    show win3_2.index t 0 * 5000 ≤ (i 0).val ∧ (i 0).val < win3_2.index t 0 * 5000 + 5000
    rw [e4, ht]; omega
  | ⟨1, _⟩ =>
    show win3_2.index t 1 * 128 ≤ (i 1).val ∧ (i 1).val < win3_2.index t 1 * 128 + 128
    rw [e5]; omega

/-- The output array after the last grid point. -/
theorem value (c : Dev nD) :
    (dat3 (F := Ideal) V c).arrAt 2 cfg3.N = mmK (K := 128) (V c main_v40) (V c main_arg3) :=
  (dat3 V c).arrAt_eq_of_cover 2 (mmK (K := 128) (V c main_v40) (V c main_arg3)) (fun t _ => written_block_eq V c t) rows_covered

end Cert.KernelIdeal.Region3

end
-- ==== Proof.Region4.lean ====
/-
  Launch 4 (the second layer's message scaling): what its output array holds when the pipeline has run over the whole grid, as one function
  of the two input arrays as the launch finds them.

  The grid has 170 points; point t works on rows 10000·t … 10000·t + 9999. Its output block is the gathered block [10000,128]
  times the normalisation block [10000,1] spread along the 128 features, so entry (p, q) of the block is
  gathered(10000·t + p, q) · norm(10000·t + p, 0): block t of the row scaling of the whole arrays. The blocks of the
  170 points tile the 1700000 rows (row r lies in the block of point r / 10000), so the array ends at the row scaling.
-/
import proofs.«426322_j84559316124278_1_alg».proof.Proof.Gen.KernelIdeal.Frame
import proofs.«426322_j84559316124278_1_alg».proof.Proof.StagesK
import Idealize.ShloMosaic.Lib.Pipeline.Value
import Idealize.ShloMosaic.Lib.ValueIdx

set_option maxRecDepth 16384

noncomputable section

namespace Cert.KernelIdeal.Region4

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The body loads and stores its whole blocks: both offsets are zero. -/
theorem zero_off : (![0, 0] : Fin 2 → Nat) = fun _ => 0 := funext fun a => by fin_cases a <;> rfl

/-- The three index maps over the grid: at point t every window's block is block (t, 0) of its array. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The body's arithmetic at entry (p, q) of the block: the gathered entry times its row's normalisation
    (the two shape casts are identities; the spread along the features reads column 0 of row p). -/
theorem pay_apply (x0 : FVec Ideal S10000x128 .f32) (x1 : FVec Ideal S10000x1 .f32) (p : Fin 10000) (q : Fin 128) :
    k4_pay1 x0 x1 (ix2 p q) = FloatOps.mulf (x0 (ix2 p q)) (x1 (ix2 p (0 : Fin 1))) := by
  unfold k4_pay1
  rw [shapeCast_self, shapeCast_self]
  show FloatOps.mulf (x0 (ix2 p q)) (broadcastTo S10000x128 x1 broadcasts_S10000x1_S10000x128 (ix2 p q)) = _
  rw [broadcastTo_apply x1 broadcasts_S10000x1_S10000x128 (ix2 p q) (ix2 p (0 : Fin 1)) (fun a => by
    match a with
    | ⟨0, _⟩ => rfl
    | ⟨1, _⟩ => rfl)]

/-- Entry j of the body's result is the row scaling of the whole arrays at array index i, as soon as the gathered
    block at j is the gathered array at i and the normalisation block at the head of j's row is the normalisation
    array at the head of i's row. -/
theorem block_scale (g : FVec Ideal S1700000x128 .f32) (n : FVec Ideal S1700000x1 .f32)
    (x0 : FVec Ideal S10000x128 .f32) (x1 : FVec Ideal S10000x1 .f32)
    (j : S10000x128.Idx) (i : S1700000x128.Idx)
    (h0 : x0 j = g i)
    (h1 : x1 (ix2 (⟨(j 0).val, idx2_lt0 j⟩ : Fin 10000) (0 : Fin 1)) = n (ix2 (⟨(i 0).val, (i 0).isLt⟩ : Fin 1700000) (0 : Fin 1))) :
    k4_pay1 x0 x1 j = scaleK g n i := by
  obtain ⟨p, q, rfl⟩ : ∃ (p : Fin 10000) (q : Fin 128), j = ix2 p q := ⟨j 0, j 1, eq_ix2 j⟩
  rw [pay_apply, h0]
  exact congrArg _ h1

/-- What point t writes back is block t of the row scaling of the two input arrays: entry (p, q) of each of the
    three blocks sits at row 10000·t + p of its array, the gathered and the output blocks at column q, the
    normalisation block at column 0. -/
theorem flushed_eq (c : Dev nD) (t : Fin cfg4.N) :
    (dat4 (F := Ideal) V c).flushed 2 t = ((cfg4.win 2).blk t).view.read (Elt Ideal) (scaleK (F := Ideal) (V c main_v42) (V c main_v32)) := by
  show (cfg4.win 2).cut (grid4.coords t) ((dat4 V c).after 2 t) = _
  rw [after4_2]
  unfold out4_2
  rw [View.canon_unit_zero zero_off]
  simp only [View.ld_unit_zero (S := S10000x128) zero_off, View.ld_unit_zero (S := S10000x1) zero_off]
  obtain ⟨e00, e01, e10, e11, e20, e21⟩ := idx_facts t
  funext j
  show k4_pay1 (iblk4 V c 0 t) (iblk4 V c 1 t) j = scaleK (V c main_v42) (V c main_v32) (((cfg4.win 2).blk t).view.emb j)
  refine block_scale _ _ _ _ j _ ?_ ?_
  · show V c main_v42 (((cfg4.win 0).blk t).view.emb j) = V c main_v42 (((cfg4.win 2).blk t).view.emb j)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  · show V c main_v32 (((cfg4.win 1).blk t).view.emb (ix2 (⟨(j 0).val, idx2_lt0 j⟩ : Fin 10000) (0 : Fin 1))) = _
    refine congrArg _ (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An array index lies in point t's output block iff each coordinate lies in the block's range on its axis. -/
theorem mem_blk (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v43).slice (win4_2.rect t)).set ↔ _
  rw [View.set_slice_whole, Rect.mem_set_unit]
  exact Iff.rfl

/-- The output blocks tile the array: row r lies in the block of point r / 10000 (1700000 = 170 · 10000), and
    every point writes its block back. -/
theorem cover (i : S1700000x128.Idx) :
    ∃ t : Fin cfg4.N, (cfg4.win 2).flush t = true ∧ i ∈ ((cfg4.win 2).blk t).view.set := by
  have hi0 : (i 0).val < 1700000 := idx2_lt0 i
  have hi1 : (i 1).val < 128 := idx2_lt1 i
  have hN : cfg4.N = 170 := N_4
  let t : Fin cfg4.N := ⟨(i 0).val / 10000, by rw [hN]; omega⟩
  obtain ⟨e00, e01, e10, e11, e20, e21⟩ := idx_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The output array after the last grid point. -/
theorem value (c : Dev nD) :
    (dat4 (F := Ideal) V c).arrAt 2 cfg4.N = scaleK (F := Ideal) (V c main_v42) (V c main_v32) := by
  exact (dat4 (F := Ideal) V c).arrAt_eq_of_cover 2 (scaleK (F := Ideal) (V c main_v42) (V c main_v32))
    (fun t _ => flushed_eq V c t) cover

end Cert.KernelIdeal.Region4

end
-- ==== Proof.Region5.lean ====
/-
  Launch 5 (the second layer's bias and positive part): what its output array holds when the pipeline has run over the whole grid, as one function
  of the two input arrays as the launch finds them.
-/
import proofs.«426322_j84559316124278_1_alg».proof.Proof.Gen.KernelIdeal.Frame
import proofs.«426322_j84559316124278_1_alg».proof.Proof.StagesK
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen Cert.KernelIdeal.Stages
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The block offsets of a whole-buffer access are all zero. -/
theorem offsets_zero : (![0, 0] : Fin 2 → Nat) = fun _ => 0 := funext fun a => by fin_cases a <;> rfl

/-- The body's arithmetic at one entry of its block: the entry plus the bias of its column, then the positive part. -/
theorem pay_apply (x0 : Vec Ideal S5000x128 .f32) (x1 : Vec Ideal S1x128 .f32) (p : Fin 5000) (q : Fin 128) :
    k5_pay1 (F := Ideal) x0 x1 (ix2 p q)
      = FloatOps.maximumf (FloatOps.addf (x0 (ix2 p q)) (x1 (ix2 (0 : Fin 1) q))) (FloatOps.ofBits .f32 0x00000000#32) := by
  unfold k5_pay1
  rw [shapeCast_self, shapeCast_self]
  show FloatOps.maximumf (FloatOps.addf (x0 (ix2 p q))
    (broadcastTo (α := Ideal .f32) S5000x128 x1 broadcasts_S1x128_S5000x128 (ix2 p q))) _ = _
  rw [broadcastTo_1b_ab_apply]
  rfl

/-- One entry of the block the body leaves is the whole-array function at the array index `i`, as soon as the
    row block's entry is the array's at `i`, the column is `i`'s, and the bias block is the bias row. -/
theorem block_entry (a : FVec Ideal S100000x128 .f32) (b : FVec Ideal S1x128 .f32)
    (x0 : Vec Ideal S5000x128 .f32) (x1 : Vec Ideal S1x128 .f32) (p : Fin 5000) (q : Fin 128) (i : S100000x128.Idx)
    (h0 : x0 (ix2 p q) = a i) (h1 : (i 1).val = q.val)
    (hb : ∀ q : Fin 128, x1 (ix2 (0 : Fin 1) q) = b (ix2 (0 : Fin 1) q)) :
    k5_pay1 (F := Ideal) x0 x1 (ix2 p q) = biasReluK (F := Ideal) a b i := by
  rw [pay_apply, h0, hb]
  obtain rfl : q = ⟨(i 1).val, (i 1).isLt⟩ := Fin.ext h1.symm
  rfl

/-- The printed index maps over the grid: the row windows sit at block (t, 0), the bias window at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array function of the two input arrays. -/
theorem flushed_eq (c : Dev nD) (t : Fin cfg5.N) :
    (dat5 (F := Ideal) V c).flushed 2 t
      = ((cfg5.win 2).blk t).view.read (Elt Ideal) (biasReluK (F := Ideal) (V c main_v46) (V c main_v47)) := by
  show (cfg5.win 2).cut (grid5.coords t) ((dat5 V c).after 2 t) = _
  rw [after5_2]
  unfold out5_2
  rw [View.canon_unit_zero offsets_zero]
  simp only [View.ld_unit_zero (S := S5000x128) offsets_zero, View.ld_unit_zero (S := S1x128) offsets_zero]
  obtain ⟨e00, e01, e10, e11, e20, e21⟩ := idx_facts t
  funext j
  obtain ⟨p, q, rfl⟩ : ∃ (p : Fin 5000) (q : Fin 128), j = ix2 p q := ⟨j 0, j 1, eq_ix2 (n0 := 5000) (n1 := 128) j⟩
  refine block_entry (V c main_v46) (V c main_v47) (iblk5 V c 0 t) (iblk5 V c 1 t) p q (((cfg5.win 2).blk t).view.emb (ix2 p q)) ?_ ?_ ?_
  · show V c main_v46 (((cfg5.win 0).blk t).view.emb (ix2 p q)) = V c main_v46 (((cfg5.win 2).blk t).view.emb (ix2 p q))
    refine congrArg _ (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  · show win5_2.index t (1 : Fin 2) * 128 + 1 * q.val = q.val
    omega
  · intro q
    show V c main_v47 (((cfg5.win 1).blk t).view.emb (ix2 (0 : Fin 1) q)) = V c main_v47 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega

/-- An array index is in point `t`'s output block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v48).slice (win5_2.rect t)).set ↔ _
  rw [View.set_slice_whole, Rect.mem_set_unit]
  exact Iff.rfl

/-- Row `r` of the array lies in the block of point `r / 5000`: the twenty blocks tile the array. -/
theorem cover (i : S100000x128.Idx) :
    ∃ t : Fin cfg5.N, (cfg5.win 2).flush t = true ∧ i ∈ ((cfg5.win 2).blk t).view.set := by
  have h0 : (i 0).val < 100000 := (i 0).isLt
  have h1 : (i 1).val < 128 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, e20, e21⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- The output array after the last grid point. -/
theorem value (c : Dev nD) :
    (dat5 (F := Ideal) V c).arrAt 2 cfg5.N = biasReluK (F := Ideal) (V c main_v46) (V c main_v47) :=
  (dat5 V c).arrAt_eq_of_cover 2 _ (fun t _ => flushed_eq V c t) cover

end Cert.KernelIdeal.Region5

end
-- ==== Proof.KFold.lean ====
/-
  The idealized kernel's result buffer at the last boundary of its @main, as the staged function of the argument arrays:
  the fold through the host stretches and the six launches, read back stretch by stretch.
-/
import proofs.«426322_j84559316124278_1_alg».proof.Proof.Gen.KernelIdeal.Frame
import proofs.«426322_j84559316124278_1_alg».proof.Proof.StagesK
import proofs.«426322_j84559316124278_1_alg».proof.Proof.KPre
import proofs.«426322_j84559316124278_1_alg».proof.Proof.LibTRef
import proofs.«426322_j84559316124278_1_alg».proof.Proof.Region0
import proofs.«426322_j84559316124278_1_alg».proof.Proof.Region1
import proofs.«426322_j84559316124278_1_alg».proof.Proof.Region2
import proofs.«426322_j84559316124278_1_alg».proof.Proof.Region3
import proofs.«426322_j84559316124278_1_alg».proof.Proof.Region4
import proofs.«426322_j84559316124278_1_alg».proof.Proof.Region5
import Idealize.ShloMosaic.Lib.StableHlo.Run

set_option maxRecDepth 16384

noncomputable section

namespace Cert.KernelIdeal.KFold

open Cert.KernelIdeal Cert.KernelIdeal.Gen Cert.KernelIdeal.Stages
open Idealize.ShloMosaic Idealize.ShloMosaic.TcCoe Idealize.SL.Sem
open Idealize.ShloMosaic.Pipeline (Dat Cfg Window)

/-! ## The host stretches, each read at the buffer it is entered for

Stated for any contents `V` the stretch is entered with and any float model: the result buffer holds the stage
function of the entry contents of the buffers the stretch reads. -/

section Host

variable {F : FTy → Type} [FloatOps F]

/-- A typed reference made of a literal reference at its own type reads a buffer's contents as they are. -/
theorem ofBuf_of {Val : EltTy → Type} (r : Ref sig .tc) (h2 : r.space ≠ .host) (h3 : r.isScoped = false)
    (v : r.ty.Contents Val) : (StableHlo.TRef.of (T := r.ty) r rfl h2 h3).ofBuf v = v := rfl
/-- … and hands a value to the buffer as it is. -/
theorem toBuf_of {Val : EltTy → Type} (r : Ref sig .tc) (h2 : r.space ≠ .host) (h3 : r.isScoped = false)
    (v : r.ty.Contents Val) : (StableHlo.TRef.of (T := r.ty) r rfl h2 h3).toBuf v = v := rfl

variable (V : Valuation τ sig (Elt F))

set_option maxHeartbeats 1000000 in
/-- The first row read: the rows of `main_v33` at the wrapped sources, filled where a source is out of range. -/
theorem take1 : StableHlo.after (hostOps1 (F := F)) V (Proc.devRef .tc main_v34)
    = takeRows (F := F) (V (Proc.devRef .tc main_v33)) (V (Proc.devRef .tc main_v3)) := by
  after_results_simp
  simp only [Cert.LibTRef.ofBuf_toBuf]
  rw [ofBuf_of main_v3, ofBuf_of main_v33, toBuf_of main_v34]
  unfold takeRows colOf wrapIdx
  rfl

set_option maxHeartbeats 1000000 in
/-- The second row read: the same operations on `main_v41`. -/
theorem take4 : StableHlo.after (hostOps4 (F := F)) V (Proc.devRef .tc main_v42)
    = takeRows (F := F) (V (Proc.devRef .tc main_v41)) (V (Proc.devRef .tc main_v3)) := by
  after_results_simp
  simp only [Cert.LibTRef.ofBuf_toBuf]
  rw [ofBuf_of main_v3, ofBuf_of main_v41, toBuf_of main_v42]
  unfold takeRows colOf wrapIdx
  rfl

/-- The first aggregation: the scaled messages summed into their targets' rows. -/
theorem agg2 : StableHlo.after (hostOps2 (F := F)) V (Proc.devRef .tc main_v38)
    = aggRows (F := F) (V (Proc.devRef .tc main_v35)) (V (Proc.devRef .tc main_v6)) := by
  after_results
  rfl
/-- The first bias as a one-row table. -/
theorem bias2 : StableHlo.after (hostOps2 (F := F)) V (Proc.devRef .tc main_v39)
    = biasRowK (F := F) (V (Proc.devRef .tc main_arg2)) := by
  after_results
  rfl

/-- The second aggregation. -/
theorem agg5 : StableHlo.after (hostOps5 (F := F)) V (Proc.devRef .tc main_v46)
    = aggRows (F := F) (V (Proc.devRef .tc main_v43)) (V (Proc.devRef .tc main_v6)) := by
  after_results
  rfl
/-- The second bias as a one-row table. -/
theorem bias5 : StableHlo.after (hostOps5 (F := F)) V (Proc.devRef .tc main_v47)
    = biasRowK (F := F) (V (Proc.devRef .tc main_arg4)) := by
  after_results
  rfl

set_option maxHeartbeats 1000000 in
/-- The last stretch: mean pooling over the graphs and the linear classifier. -/
theorem tail6 : StableHlo.after (hostOps6 (F := F)) V (Proc.devRef .tc main_v64)
    = tailOf (F := F) (V (Proc.devRef .tc main_v48)) (V (Proc.devRef .tc main_arg8)) (V (Proc.devRef .tc main_arg5))
        (V (Proc.devRef .tc main_arg6)) := by
  after_results_simp
  unfold tailOf
  rfl

/-! ### What a stretch writes, and the buffers it leaves -/

/-- The buffer of a listed reference, as a one-element set, lies among the list's buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the first row read writes. -/
abbrev wr1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10,
   main_call1_v11, main_call1_c_3, main_call1_v12, main_call1_v13, main_call1_v14, main_call1_cst, main_call1_v15, main_v34]
/-- The references the first aggregation stretch writes. -/
abbrev wr2 : List (Ref sig .tc) := [main_cst_7, main_v36, main_v37, main_v38, main_v39]
/-- The references the second row read writes. -/
abbrev wr4 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10,
   main_call2_v11, main_call2_c_3, main_call2_v12, main_call2_v13, main_call2_v14, main_call2_cst, main_call2_v15, main_v42]
/-- The references the second aggregation stretch writes. -/
abbrev wr5 : List (Ref sig .tc) := [main_cst_8, main_v44, main_v45, main_v46, main_v47]

theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes]
  repeat' apply And.intro
  all_goals exact single_sub (by decide)
theorem writes2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.ternary_writes, StableHlo.reshape_writes]
  repeat' apply And.intro
  all_goals exact single_sub (by decide)
theorem writes4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes]
  repeat' apply And.intro
  all_goals exact single_sub (by decide)
theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.ternary_writes, StableHlo.reshape_writes]
  repeat' apply And.intro
  all_goals exact single_sub (by decide)

theorem keep1 (b : Ref sig .tc) (h : b ∉ wr1) : StableHlo.after (hostOps1 (F := F)) V (Proc.devRef .tc b) = V (Proc.devRef .tc b) :=
  StableHlo.after_of_writes_sub hostOps1 V writes1 h
theorem keep2 (b : Ref sig .tc) (h : b ∉ wr2) : StableHlo.after (hostOps2 (F := F)) V (Proc.devRef .tc b) = V (Proc.devRef .tc b) :=
  StableHlo.after_of_writes_sub hostOps2 V writes2 h
theorem keep4 (b : Ref sig .tc) (h : b ∉ wr4) : StableHlo.after (hostOps4 (F := F)) V (Proc.devRef .tc b) = V (Proc.devRef .tc b) :=
  StableHlo.after_of_writes_sub hostOps4 V writes4 h
theorem keep5 (b : Ref sig .tc) (h : b ∉ wr5) : StableHlo.after (hostOps5 (F := F)) V (Proc.devRef .tc b) = V (Proc.devRef .tc b) :=
  StableHlo.after_of_writes_sub hostOps5 V writes5 h

end Host

/-! ## The fold, read back from the last boundary

Over the extended reals, at a fixed core. A buffer no launch has among its arrays and no host stretch writes holds at
a boundary what it held at the first launch's entry; which references those are is decided over references. -/

variable (m : (ℓ : Loc nD τ sig) → Buf (Elt Ideal) ℓ) (ρ : Dev nD → PrngReg)

section Core

variable (c : Dev nD)

/-- Not an array of the first launch. -/
abbrev free4 (b : Ref sig .tc) : Prop := ∀ w, Pipeline.arrRef spec0 w ≠ b
/-- … nor written by the first row read. -/
abbrev free5 (b : Ref sig .tc) : Prop := free4 b ∧ b ∉ wr1
/-- … nor an array of the first scaling. -/
abbrev free6 (b : Ref sig .tc) : Prop := free5 b ∧ ∀ w, Pipeline.arrRef spec1 w ≠ b
/-- … nor written by the first aggregation stretch. -/
abbrev free7 (b : Ref sig .tc) : Prop := free6 b ∧ b ∉ wr2
/-- … nor an array of the first bias launch. -/
abbrev free8 (b : Ref sig .tc) : Prop := free7 b ∧ ∀ w, Pipeline.arrRef spec2 w ≠ b
/-- … nor an array of the second matrix product. -/
abbrev free9 (b : Ref sig .tc) : Prop := free8 b ∧ ∀ w, Pipeline.arrRef spec3 w ≠ b
/-- … nor written by the second row read. -/
abbrev free10 (b : Ref sig .tc) : Prop := free9 b ∧ b ∉ wr4
/-- … nor an array of the second scaling. -/
abbrev free11 (b : Ref sig .tc) : Prop := free10 b ∧ ∀ w, Pipeline.arrRef spec4 w ≠ b
/-- … nor written by the second aggregation stretch. -/
abbrev free12 (b : Ref sig .tc) : Prop := free11 b ∧ b ∉ wr5
/-- … nor an array of the second bias launch. -/
abbrev free13 (b : Ref sig .tc) : Prop := free12 b ∧ ∀ w, Pipeline.arrRef spec5 w ≠ b

theorem to4 (b : Ref sig .tc) (h : free4 b) :
    W4 (F := Ideal) m ρ c (Proc.devRef .tc b) = W3 m ρ c (Proc.devRef .tc b) := W4_of_ne m ρ c b h
theorem to5 (b : Ref sig .tc) (h : free5 b) :
    W5 (F := Ideal) m ρ c (Proc.devRef .tc b) = W3 m ρ c (Proc.devRef .tc b) := (keep1 _ b h.2).trans (to4 m ρ c b h.1)
theorem to6 (b : Ref sig .tc) (h : free6 b) :
    W6 (F := Ideal) m ρ c (Proc.devRef .tc b) = W3 m ρ c (Proc.devRef .tc b) := (W6_of_ne m ρ c b h.2).trans (to5 m ρ c b h.1)
theorem to7 (b : Ref sig .tc) (h : free7 b) :
    W7 (F := Ideal) m ρ c (Proc.devRef .tc b) = W3 m ρ c (Proc.devRef .tc b) := (keep2 _ b h.2).trans (to6 m ρ c b h.1)
theorem to8 (b : Ref sig .tc) (h : free8 b) :
    W8 (F := Ideal) m ρ c (Proc.devRef .tc b) = W3 m ρ c (Proc.devRef .tc b) := (W8_of_ne m ρ c b h.2).trans (to7 m ρ c b h.1)
theorem to9 (b : Ref sig .tc) (h : free9 b) :
    W9 (F := Ideal) m ρ c (Proc.devRef .tc b) = W3 m ρ c (Proc.devRef .tc b) := (W9_of_ne m ρ c b h.2).trans (to8 m ρ c b h.1)
theorem to10 (b : Ref sig .tc) (h : free10 b) :
    W10 (F := Ideal) m ρ c (Proc.devRef .tc b) = W3 m ρ c (Proc.devRef .tc b) := (keep4 _ b h.2).trans (to9 m ρ c b h.1)
theorem to11 (b : Ref sig .tc) (h : free11 b) :
    W11 (F := Ideal) m ρ c (Proc.devRef .tc b) = W3 m ρ c (Proc.devRef .tc b) := (W11_of_ne m ρ c b h.2).trans (to10 m ρ c b h.1)
theorem to12 (b : Ref sig .tc) (h : free12 b) :
    W12 (F := Ideal) m ρ c (Proc.devRef .tc b) = W3 m ρ c (Proc.devRef .tc b) := (keep5 _ b h.2).trans (to11 m ρ c b h.1)
theorem to13 (b : Ref sig .tc) (h : free13 b) :
    W13 (F := Ideal) m ρ c (Proc.devRef .tc b) = W3 m ρ c (Proc.devRef .tc b) := (W13_of_ne m ρ c b h.2).trans (to12 m ρ c b h.1)

/-- The launch memory's contents of a reference of the core. -/
abbrev arg (r : Ref sig .tc) : Buf (Elt Ideal) ((c.tc : Thread nD τ).loc r) := m ((c.tc : Thread nD τ).loc r)

/-- The rows a layer reads, scales and sums, after its dense transform `t`. -/
abbrev gOf (t : FVec Ideal S100000x128 .f32) (ei : IVec S2x1600000 32) : FVec Ideal S1700000x128 .f32 := takeRows t (srcOf ei)
abbrev sOf (t : FVec Ideal S100000x128 .f32) (ei : IVec S2x1600000 32) : FVec Ideal S1700000x128 .f32 :=
  scaleK (gOf t ei) (normColK (normOf ei))
abbrev aOf (t : FVec Ideal S100000x128 .f32) (ei : IVec S2x1600000 32) : FVec Ideal S100000x128 .f32 := aggRows (sOf t ei) (dstOf ei)

/-- The first layer's dense transform, its output, the second layer's dense transform, its output. -/
abbrev t1 : FVec Ideal S100000x128 .f32 := mmK (K := 64) (arg m c main_arg0) (arg m c main_arg1)
abbrev h1 : FVec Ideal S100000x128 .f32 := layerK (t1 m c) (arg m c main_arg7) (arg m c main_arg2)
abbrev t2 : FVec Ideal S100000x128 .f32 := mmK (K := 128) (h1 m c) (arg m c main_arg3)
abbrev h2 : FVec Ideal S100000x128 .f32 := layerK (t2 m c) (arg m c main_arg7) (arg m c main_arg4)

/-! ### The normalisation column: an input array of both scalings, entered as the first launch found it -/

theorem norm5 : W5 (F := Ideal) m ρ c (Proc.devRef .tc main_v32) = normColK (normOf (F := Ideal) (arg m c main_arg7)) :=
  (to5 m ρ c main_v32 (by decide)).trans (KPre.norm m ρ c)
theorem norm6 : W6 (F := Ideal) m ρ c (Proc.devRef .tc main_v32) = normColK (normOf (F := Ideal) (arg m c main_arg7)) :=
  ((W6_arr m ρ c 1).trans (((dat1 (V5 m ρ) c).arrAt_in 1 rfl _).trans (A_eq1 (V5 m ρ) c 1))).trans (norm5 m ρ c)
theorem norm10 : W10 (F := Ideal) m ρ c (Proc.devRef .tc main_v32) = normColK (normOf (F := Ideal) (arg m c main_arg7)) :=
  (keep4 _ main_v32 (by decide)).trans ((W9_of_ne m ρ c main_v32 (by decide)).trans ((W8_of_ne m ρ c main_v32 (by decide)).trans
    ((keep2 _ main_v32 (by decide)).trans (norm6 m ρ c))))

/-! ### The first layer -/

theorem v33_4 : W4 (F := Ideal) m ρ c (Proc.devRef .tc main_v33) = t1 m c :=
  (W4_arr m ρ c 2).trans ((Region0.value (V3 m ρ) c).trans
    (congrArg₂ (mmK (K := 64)) (KPre.arg0 m ρ c) (KPre.arg1 m ρ c)))
theorem v34_5 : W5 (F := Ideal) m ρ c (Proc.devRef .tc main_v34) = gOf (t1 m c) (arg m c main_arg7) :=
  (take1 (W4 m ρ c)).trans (congrArg₂ (takeRows (F := Ideal)) (v33_4 m ρ c)
    ((to4 m ρ c main_v3 (by decide)).trans (KPre.src m ρ c)))
theorem v35_6 : W6 (F := Ideal) m ρ c (Proc.devRef .tc main_v35) = sOf (t1 m c) (arg m c main_arg7) :=
  (W6_arr m ρ c 2).trans ((Region1.value (V5 m ρ) c).trans
    (congrArg₂ (scaleK (F := Ideal)) (v34_5 m ρ c) (norm5 m ρ c)))
theorem v38_7 : W7 (F := Ideal) m ρ c (Proc.devRef .tc main_v38) = aOf (t1 m c) (arg m c main_arg7) :=
  (agg2 (W6 m ρ c)).trans (congrArg₂ (aggRows (F := Ideal)) (v35_6 m ρ c)
    ((to6 m ρ c main_v6 (by decide)).trans (KPre.dst m ρ c)))
theorem v39_7 : W7 (F := Ideal) m ρ c (Proc.devRef .tc main_v39) = biasRowK (F := Ideal) (arg m c main_arg2) :=
  (bias2 (W6 m ρ c)).trans (congrArg (biasRowK (F := Ideal)) ((to6 m ρ c main_arg2 (by decide)).trans (KPre.arg2 m ρ c)))
theorem v40_8 : W8 (F := Ideal) m ρ c (Proc.devRef .tc main_v40) = h1 m c :=
  (W8_arr m ρ c 2).trans ((Region2.value (V7 m ρ) c).trans
    (congrArg₂ (biasReluK (F := Ideal)) (v38_7 m ρ c) (v39_7 m ρ c)))

/-! ### The second layer -/

theorem v41_9 : W9 (F := Ideal) m ρ c (Proc.devRef .tc main_v41) = t2 m c :=
  (W9_arr m ρ c 2).trans ((Region3.value (V8 m ρ) c).trans
    (congrArg₂ (mmK (K := 128)) (v40_8 m ρ c) ((to8 m ρ c main_arg3 (by decide)).trans (KPre.arg3 m ρ c))))
theorem v42_10 : W10 (F := Ideal) m ρ c (Proc.devRef .tc main_v42) = gOf (t2 m c) (arg m c main_arg7) :=
  (take4 (W9 m ρ c)).trans (congrArg₂ (takeRows (F := Ideal)) (v41_9 m ρ c)
    ((to9 m ρ c main_v3 (by decide)).trans (KPre.src m ρ c)))
theorem v43_11 : W11 (F := Ideal) m ρ c (Proc.devRef .tc main_v43) = sOf (t2 m c) (arg m c main_arg7) :=
  (W11_arr m ρ c 2).trans ((Region4.value (V10 m ρ) c).trans
    (congrArg₂ (scaleK (F := Ideal)) (v42_10 m ρ c) (norm10 m ρ c)))
theorem v46_12 : W12 (F := Ideal) m ρ c (Proc.devRef .tc main_v46) = aOf (t2 m c) (arg m c main_arg7) :=
  (agg5 (W11 m ρ c)).trans (congrArg₂ (aggRows (F := Ideal)) (v43_11 m ρ c)
    ((to11 m ρ c main_v6 (by decide)).trans (KPre.dst m ρ c)))
theorem v47_12 : W12 (F := Ideal) m ρ c (Proc.devRef .tc main_v47) = biasRowK (F := Ideal) (arg m c main_arg4) :=
  (bias5 (W11 m ρ c)).trans (congrArg (biasRowK (F := Ideal)) ((to11 m ρ c main_arg4 (by decide)).trans (KPre.arg4 m ρ c)))
theorem v48_13 : W13 (F := Ideal) m ρ c (Proc.devRef .tc main_v48) = h2 m c :=
  (W13_arr m ρ c 2).trans ((Region5.value (V12 m ρ) c).trans
    (congrArg₂ (biasReluK (F := Ideal)) (v46_12 m ρ c) (v47_12 m ρ c)))

end Core

/-- The result buffer at the last boundary is the kernel's staged function of the launch memory's arguments. -/
theorem value (c : Dev nD) :
    W14 (F := Ideal) m ρ c (Proc.devRef .tc main_v64)
      = kerFun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (tail6 (W13 m ρ c)).trans ?_
  rw [v48_13 m ρ c, (to13 m ρ c main_arg8 (by decide)).trans (KPre.arg8 m ρ c),
    (to13 m ρ c main_arg5 (by decide)).trans (KPre.arg5 m ρ c), (to13 m ρ c main_arg6 (by decide)).trans (KPre.arg6 m ρ c)]
  rfl

end Cert.KernelIdeal.KFold

end
-- ==== Proof.TakeRows.lean ====
/-
  Under the precondition every message source lies in [0, 100000): the first row of the edge list by the precondition's
  last conjunct, the self loops because they are the node numbers. So the kernel's row read never fills: it is the plain
  gather.
-/
import proofs.«426322_j84559316124278_1_alg».proof.Defs
import proofs.«426322_j84559316124278_1_alg».proof.Proof.Gen.Pre_finite_inputs
import proofs.«426322_j84559316124278_1_alg».proof.Proof.Gen.KernelIdeal
import proofs.«426322_j84559316124278_1_alg».proof.Proof.StagesK
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

namespace Cert.KernelIdeal.TakeRows

open Cert.KernelIdeal Cert.KernelIdeal.Gen Cert.KernelIdeal.Stages
open Idealize.ShloMosaic Idealize.SL.Sem
open Idealize.ShloMosaic.ValueIdx Idealize.ShloMosaic.StableHlo.Predicate

/-! ### An and-reduce of ones -/

/-- A left fold by `and` from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi (1#1) (1#1) = 1#1 := by decide
    rw [List.foldl_cons, h a (List.mem_cons_self ..), e]
    exact foldl_andi_one f l fun n hn => h n (List.mem_cons_of_mem _ hn)

/-- A reduce by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun i _ => hx i

/-! ### Signed compares of a small word -/

theorem slt_zero_of_lt {x : BitVec 32} (hx : x.toNat < 100000) : IntOp.cmpi .slt x 0#32 = 0#1 := by
  refine eq_zero_of_ne_one fun h => ?_
  have := (slt_iff_toNat (a := x) (b := 0#32) (by omega) (by decide)).1 h
  simp at this

theorem sge_zero_of_lt {x : BitVec 32} (hx : x.toNat < 100000) : IntOp.cmpi .sge x 0#32 = 1#1 :=
  (sge_iff_toNat (a := x) (b := 0#32) (by omega) (by decide)).2 (by simp)

theorem sle_top_of_lt {x : BitVec 32} (hx : x.toNat < 100000) : IntOp.cmpi .sle x 99999#32 = 1#1 :=
  (sle_iff_toNat (a := x) (b := 99999#32) (by omega) (by decide)).2 (by
    have : (99999#32 : BitVec 32).toNat = 99999 := by decide
    omega)

/-- A word that passes `0 ≤ ·` and `· < 100000` signed is below 100000 as a natural number. -/
theorem toNat_lt_of_sge_slt (x : BitVec 32) (h0 : IntOp.cmpi .sge x 0#32 = 1#1) (h1 : IntOp.cmpi .slt x 100000#32 = 1#1) :
    x.toNat < 100000 := by
  unfold IntOp.cmpi at h0 h1
  rw [ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0
  rw [e1] at h1
  have hx := BitVec.toInt_eq_toNat_cond x
  have := x.isLt
  split_ifs at hx <;> omega

/-! ### The row read under a bound on the sources -/

/-- Sources below 100000: no wrap, every row passes the range test, the fill is never taken. -/
theorem take_of_bound (t : FVec Ideal S100000x128 .f32) (s : IVec S1700000 32) (hs : ∀ i, (s i).toNat < 100000) :
    takeRows t s = gatherRows t s := by
  have hw : wrapIdx s = s := by
    funext i
    show Scalar.select (IntOp.cmpi .slt (s i) 0#32) _ (s i) = s i
    rw [slt_zero_of_lt (hs i)]
    exact select_zero _ _
  unfold takeRows gatherRows
  rw [hw]
  funext j
  rw [select_apply]
  have hm : (broadcastInDim S1700000x128 ![0] bcast_S1700000_S1700000x128_0
      (Host.reduce IntOp.andi
        (andi (cmpi .sge (colOf s) (broadcastInDim S1700000x1 ![] bcast_S_S1700000x1 (constantI S_ 32 0#32)))
          (cmpi .sle (colOf s) (broadcastInDim S1700000x1 ![0, 1] bcast_S1x1_S1700000x1_0_1 (broadcastInDim S1x1 ![1] bcast_S1_S1x1_1 (constantI S1 32 99999#32)))))
        (constantI S_ 1 1#1) reducesTo_S1700000x1_S1700000_d1 h_S_)) j = 1#1 := by
    show Host.reduce IntOp.andi _ _ _ _ _ = 1#1
    refine reduce_andi_of_all _ _ _ _ rfl (fun i => ?_) _
    show IntOp.andi (IntOp.cmpi .sge (s _) 0#32) (IntOp.cmpi .sle (s _) 99999#32) = 1#1
    exact IntOp.andi_eq_one.2 ⟨sge_zero_of_lt (hs _), sle_top_of_lt (hs _)⟩
  rw [hm]
  exact select_one _ _

/-! ### The sources are in range -/

/-- A vector of words below 100000 followed by the numbers 0 … 99999 is a vector of words below 100000. -/
theorem concat_bound (x₁ : IVec S1600000 32) (h0 : ∀ p, (x₁ p).toNat < 100000) (k : S1700000.Idx) :
    (concatenate S1700000 0 [⟨S1600000, x₁⟩, ⟨S100000, iotaInDim S100000 32 0⟩]
      concatenates_S1600000_S100000_S1700000_d0 k).toNat < 100000 := by
  have hlt : (k 0).val < 1700000 := (k 0).isLt
  by_cases hk : (k 0).val < 1600000
  · rw [concatenate_pair_apply_left (t := S1700000) (s₁ := S1600000) (s₂ := S100000) 0 x₁ (iotaInDim S100000 32 0)
      concatenates_S1600000_S100000_S1700000_d0 k rfl (ix1 ⟨(k 0).val, hk⟩) (fun b => by match b with | ⟨0, _⟩ => rfl)]
    exact h0 _
  · have hq : (k 0).val - 1600000 < 100000 := by omega
    have hoth : ∀ b : Fin S100000.rank, b.cast (rfl : S100000.rank = S1700000.rank) ≠ (0 : Fin S1700000.rank) →
        ((ix1 (⟨(k 0).val - 1600000, hq⟩ : Fin 100000) : S100000.Idx) b).val = (k (b.cast rfl)).val := by
      intro b hb
      exact absurd (Subsingleton.elim (α := Fin 1) _ _) hb
    have hax : ((ix1 (⟨(k 0).val - 1600000, hq⟩ : Fin 100000) : S100000.Idx) 0).val + 1600000 = (k 0).val := by
      show (k 0).val - 1600000 + 1600000 = (k 0).val; omega
    rw [concatenate_pair_apply_right (t := S1700000) (s₁ := S1600000) (s₂ := S100000) 0 x₁ (iotaInDim S100000 32 0)
      concatenates_S1600000_S100000_S1700000_d0 k rfl rfl (ix1 ⟨(k 0).val - 1600000, hq⟩) hoth hax]
    show (BitVec.ofNat 32 ((k 0).val - 1600000)).toNat < 100000
    rw [BitVec.toNat_ofNat, Nat.mod_eq_of_lt (by omega)]
    exact hq

/-! ### The precondition's last conjunct, read back -/

instance : Subsingleton (⟨0, ![]⟩ : Shape).Idx := ⟨fun a b => funext fun d => d.elim0⟩

/-- The last conjunct of the precondition: every entry of row 0 of the edge list is below 100000. -/
theorem row0_bound (ei : IVec S2x1600000 32) (v33 : IVec S_ 1)
    (h : Cert.Pre_finite_inputs.fn_part2 (F := Ideal) ei v33 = fun _ => 1#1) (p : S1600000.Idx) :
    (shapeCast S1600000 (extractStridedSlice S1x1600000 ![0, 0] ei slices_S2x1600000_S1x1600000_0_0)
      shapeCasts_S1x1600000_S1600000 p).toNat < 100000 := by
  have h1 := congrFun h ix0
  dsimp only [Cert.Pre_finite_inputs.fn_part2] at h1
  have h2 := (IntOp.andi_eq_one.1 h1).2
  have h3 := Host.reduce_andi_all _ _ _ _ _ h2 p
  have h4 := IntOp.andi_eq_one.1 h3
  exact toNat_lt_of_sge_slt _ h4.1 h4.2

/-- Under the precondition the kernel's row read at the message sources is the plain gather, whatever the table. -/
theorem take_of_pre (m : (ℓ : Loc nD τ sig) → Buf (Elt Ideal) ℓ) (hpre : Cert.Pre_KernelIdeal m) (c : Dev nD)
    (t : FVec Ideal S100000x128 .f32) :
    takeRows t (srcOf (m ((c.tc : Thread nD τ).loc main_arg7))) = gatherRows t (srcOf (m ((c.tc : Thread nD τ).loc main_arg7))) := by
  refine take_of_bound t _ fun i => ?_
  unfold srcOf
  exact concat_bound _ (row0_bound _ _ (hpre c)) i

end Cert.KernelIdeal.TakeRows

end
-- ==== Proof.StagesR.lean ====
/-
  The reference program cut into stages, each a function of whole arrays: index preparation (sources, targets, the
  wrap of negative indices), degrees and the symmetric normalisation, the row gather, the scaling, the scatter-add,
  bias and positive part, mean pooling and the classifier. The stages are the program's own host operations.
-/
import proofs.«426322_j84559316124278_1_alg».proof.ReferenceIdeal
import Idealize.ShloMosaic.PureOps.Ideal

noncomputable section

namespace Cert.ReferenceIdeal.Stages

open Idealize.ShloMosaic Cert.ReferenceIdeal Cert.ReferenceIdeal.Facts₀ Cert.ReferenceIdeal.Facts

variable [Cert.ReferenceIdeal.Facts]

variable {F : FTy → Type} [FloatOps F]

/-- Message sources: row 0 of the edge list, then every node once (the self loops). -/
def srcOf (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Aggregation targets: row 1 of the edge list, then every node once. -/
def dstOf (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative index counted from the end: s + 100000 where s < 0, else s. -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- An index vector as the one-column table a gather or scatter reads. -/
def colOf (s : IVec S1700000 32) : IVec S1700000x1 32 := broadcastInDim S1700000x1 ![0] bcast_S1700000_S1700000x1_0 s

/-- In-degree with self loops: one unit added at every target. -/
def degOf (d : IVec S1700000 32) : FVec F S100000 .f32 :=
  Host.scatterAdd scatter_S100000_S1700000x1_S1700000_n_0_0_1 (broadcastInDim S100000 ![] bcast_S_S100000 (constant S_ .f32 0x00000000#32))
    (colOf d) (broadcastInDim S1700000 ![] bcast_S_S1700000 (constant S_ .f32 0x3F800000#32))

/-- deg^(-1/2) where deg > 0, else 0. -/
def dinvOf (deg : FVec F S100000 .f32) : FVec F S100000 .f32 :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- The symmetric normalisation of every message: dinv[src] · dinv[dst]. -/
def normOf (ei : IVec S2x1600000 32) : FVec F S1700000 .f32 :=
  mulf (Host.gather gather_S100000_S1700000x1_S1700000_n_0_n_n_0_1_1 (dinvOf (degOf (dstOf ei))) (colOf (wrapIdx (srcOf ei))))
    (Host.gather gather_S100000_S1700000x1_S1700000_n_0_n_n_0_1_1 (dinvOf (degOf (dstOf ei))) (colOf (wrapIdx (dstOf ei))))

/-- Rows of a node table read at the (wrapped) sources; the gather clamps an index outside the table. -/
def gatherRows (t : FVec F S100000x128 .f32) (s : IVec S1700000 32) : FVec F S1700000x128 .f32 :=
  Host.gather gather_S100000x128_S1700000x1_S1700000x128_1_0_n_n_0_1_1128 t (colOf (wrapIdx s))

/-- Messages summed into their targets' rows (a target outside the table is dropped). -/
def aggRows (msg : FVec F S1700000x128 .f32) (d : IVec S1700000 32) : FVec F S100000x128 .f32 :=
  Host.scatterAdd scatter_S100000x128_S1700000x1_S1700000x128_1_0_0_1 (broadcastInDim S100000x128 ![] bcast_S_S100000x128 (constant S_ .f32 0x00000000#32))
    (colOf d) msg

/-- Mean pooling over the graphs and the linear classifier. -/
def tailOf (h : FVec F S100000x128 .f32) (batch : IVec S100000 32) (Wc : FVec F S128x10 .f32) (bc : FVec F S10 .f32) : FVec F S64x10 .f32 :=
  addf (Host.dotGeneral dot_S64x128_S128x10_S64x10_1_0_0_1_n_n none
      (Host.divf
        (Host.scatterAdd scatter_S64x128_S100000x1_S100000x128_1_0_0_1 (broadcastInDim S64x128 ![] bcast_S_S64x128 (constant S_ .f32 0x00000000#32))
          (broadcastInDim S100000x1 ![0] bcast_S100000_S100000x1_0 batch) h)
        (broadcastInDim S64x128 ![0, 1] bcast_S64x1_S64x128_0_1 (broadcastInDim S64x1 ![0] bcast_S64_S64x1_0
          (maximumf (Host.scatterAdd scatter_S64_S100000x1_S100000_n_0_0_1 (broadcastInDim S64 ![] bcast_S_S64 (constant S_ .f32 0x00000000#32))
              (broadcastInDim S100000x1 ![0] bcast_S100000_S100000x1_0 batch) (broadcastInDim S100000 ![] bcast_S_S100000 (constant S_ .f32 0x3F800000#32)))
            (broadcastInDim S64 ![] bcast_S_S64 (constant S_ .f32 0x3F800000#32))))))
      Wc)
    (broadcastInDim S64x10 ![0, 1] bcast_S1x10_S64x10_0_1 (broadcastInDim S1x10 ![1] bcast_S10_S1x10_1 bc))

/-- Messages scaled by their normalisation, the column broadcast along the features. -/
def scaleRows (g : FVec F S1700000x128 .f32) (ncol : FVec F S1700000x1 .f32) : FVec F S1700000x128 .f32 :=
  mulf g (broadcastInDim S1700000x128 ![0, 1] bcast_S1700000x1_S1700000x128_0_1 ncol)

/-- The normalisation vector as a one-column table. -/
def normCol (n : FVec F S1700000 .f32) : FVec F S1700000x1 .f32 := broadcastInDim S1700000x1 ![0] bcast_S1700000_S1700000x1_0 n

/-- The bias as a one-row table. -/
def biasRow (b : FVec F S128 .f32) : FVec F S1x128 .f32 := broadcastInDim S1x128 ![1] bcast_S128_S1x128_1 b

/-- Bias added to every row, then the positive part. -/
def biasRelu (a : FVec F S100000x128 .f32) (brow : FVec F S1x128 .f32) : FVec F S100000x128 .f32 :=
  maximumf (addf a (broadcastInDim S100000x128 ![0, 1] bcast_S1x128_S100000x128_0_1 brow))
    (broadcastInDim S100000x128 ![] bcast_S_S100000x128 (constant S_ .f32 0x00000000#32))

/-- One graph-convolution layer after its dense transform t = h·W:
    relu( Σ_{messages into i} t[src] · norm + b ). -/
def layer (t : FVec F S100000x128 .f32) (ei : IVec S2x1600000 32) (b : FVec F S128 .f32) : FVec F S100000x128 .f32 :=
  biasRelu (aggRows (scaleRows (gatherRows t (srcOf ei)) (normCol (normOf ei))) (dstOf ei)) (biasRow b)

/-- The reference: two layers over the host's matrix products, pooled and classified. -/
def refFun (x : FVec F S100000x64 .f32) (W1 : FVec F S64x128 .f32) (b1 : FVec F S128 .f32) (W2 : FVec F S128x128 .f32) (b2 : FVec F S128 .f32)
    (Wc : FVec F S128x10 .f32) (bc : FVec F S10 .f32) (ei : IVec S2x1600000 32) (batch : IVec S100000 32) : FVec F S64x10 .f32 :=
  tailOf (layer (Host.dotGeneral dot_S100000x128_S128x128_S100000x128_1_0_0_1_n_n none
      (layer (Host.dotGeneral dot_S100000x64_S64x128_S100000x128_1_0_0_1_n_n none x W1) ei b1) W2) ei b2) batch Wc bc

end Cert.ReferenceIdeal.Stages

end
-- ==== Proof.Bridge.lean ====
/-
  The kernel's staged function and the reference's are one function of the arguments wherever the kernel's row read is
  the plain gather: a launch's matrix product is the host's, its scaling and its bias step are the host's pointwise
  operations, a reshape to one column or one row is the broadcast that adds the unit axis, and every other stage is the
  same host operation on both sides.
-/
import proofs.«426322_j84559316124278_1_alg».proof.Proof.StagesK
import proofs.«426322_j84559316124278_1_alg».proof.Proof.StagesR
import proofs.«426322_j84559316124278_1_alg».proof.Proof.Gen.KernelIdeal
import proofs.«426322_j84559316124278_1_alg».proof.Proof.Gen.ReferenceIdeal
import proofs.«426322_j84559316124278_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx

/-! ## Unit axes: a reshape and a broadcast read the same entry -/

/-- A vector reshaped to one column reads, at (p, u), the vector at p. -/
theorem shapeCast_col {α : Type} {n : Nat} (v : (⟨1, ![n]⟩ : Shape).Idx → α)
    (h : (⟨1, ![n]⟩ : Shape).ShapeCasts ⟨2, ![n, 1]⟩) (p : Fin n) (u : Fin 1) :
    shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    omega)

/-- A vector broadcast along a new trailing unit axis reads, at (p, u), the vector at p. -/
theorem bcast_col {α : Type} {n : Nat} (v : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h v (ix2 p u) = v (ix1 p) :=
  broadcastInDim_apply _ h v _ _ (by
    intro a
    match a with
    | ⟨0, _⟩ =>
      have hp := p.isLt
      show p.val = if n = 1 then 0 else p.val
      split <;> omega)

/-- A vector broadcast along a new leading unit axis reads, at (u, q), the vector at q. -/
theorem bcast_row {α : Type} {m : Nat} (v : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h v (ix2 u q) = v (ix1 q) :=
  broadcastInDim_apply _ h v _ _ (by
    intro a
    match a with
    | ⟨0, _⟩ =>
      have hq := q.isLt
      show q.val = if m = 1 then 0 else q.val
      split <;> omega)

/-- A column broadcast along the second axis reads, at (p, q), the column at (p, 0). -/
theorem bcast_rect_of_col {α : Type} {n m : Nat} (v : (⟨2, ![n, 1]⟩ : Shape).Idx → α)
    (h : (⟨2, ![n, 1]⟩ : Shape).BroadcastsInDim ⟨2, ![n, m]⟩ ![0, 1]) (p : Fin n) (q : Fin m) :
    broadcastInDim ⟨2, ![n, m]⟩ ![0, 1] h v (ix2 p q) = v (ix2 p (0 : Fin 1)) :=
  broadcastInDim_apply _ h v _ _ (by
    intro a
    match a with
    | ⟨0, _⟩ =>
      have hp := p.isLt
      show p.val = if n = 1 then 0 else p.val
      split <;> omega
    | ⟨1, _⟩ =>
      show (0 : Nat) = if (1 : Nat) = 1 then 0 else q.val
      rfl)

/-- A row broadcast along the first axis reads, at (p, q), the row at (0, q). -/
theorem bcast_rect_of_row {α : Type} {n m : Nat} (v : (⟨2, ![1, m]⟩ : Shape).Idx → α)
    (h : (⟨2, ![1, m]⟩ : Shape).BroadcastsInDim ⟨2, ![n, m]⟩ ![0, 1]) (p : Fin n) (q : Fin m) :
    broadcastInDim ⟨2, ![n, m]⟩ ![0, 1] h v (ix2 p q) = v (ix2 (0 : Fin 1) q) :=
  broadcastInDim_apply _ h v _ _ (by
    intro a
    match a with
    | ⟨0, _⟩ =>
      show (0 : Nat) = if (1 : Nat) = 1 then 0 else p.val
      rfl
    | ⟨1, _⟩ =>
      have hq := q.isLt
      show q.val = if m = 1 then 0 else q.val
      split <;> omega)

/-! ## The stages both programs share -/

section Shared

theorem srcOf_eq (ei : IVec Cert.KernelIdeal.S2x1600000 32) :
    Cert.KernelIdeal.Stages.srcOf ei = Cert.ReferenceIdeal.Stages.srcOf ei := rfl

theorem dstOf_eq (ei : IVec Cert.KernelIdeal.S2x1600000 32) :
    Cert.KernelIdeal.Stages.dstOf ei = Cert.ReferenceIdeal.Stages.dstOf ei := rfl

theorem wrapIdx_eq (s : IVec Cert.KernelIdeal.S1700000 32) :
    Cert.KernelIdeal.Stages.wrapIdx s = Cert.ReferenceIdeal.Stages.wrapIdx s := rfl

theorem colOf_eq (s : IVec Cert.KernelIdeal.S1700000 32) :
    Cert.KernelIdeal.Stages.colOf s = Cert.ReferenceIdeal.Stages.colOf s := rfl

theorem degOf_eq (d : IVec Cert.KernelIdeal.S1700000 32) :
    Cert.KernelIdeal.Stages.degOf (F := Ideal) d = Cert.ReferenceIdeal.Stages.degOf (F := Ideal) d := rfl

theorem dinvOf_eq (deg : FVec Ideal Cert.KernelIdeal.S100000 .f32) :
    Cert.KernelIdeal.Stages.dinvOf deg = Cert.ReferenceIdeal.Stages.dinvOf deg := rfl

theorem normOf_eq (ei : IVec Cert.KernelIdeal.S2x1600000 32) :
    Cert.KernelIdeal.Stages.normOf (F := Ideal) ei = Cert.ReferenceIdeal.Stages.normOf (F := Ideal) ei := by
  unfold Cert.KernelIdeal.Stages.normOf Cert.ReferenceIdeal.Stages.normOf
  rw [dstOf_eq, srcOf_eq, degOf_eq, dinvOf_eq, wrapIdx_eq, wrapIdx_eq, colOf_eq, colOf_eq]
  rfl

theorem gatherRows_eq (t : FVec Ideal Cert.KernelIdeal.S100000x128 .f32) (s : IVec Cert.KernelIdeal.S1700000 32) :
    Cert.KernelIdeal.Stages.gatherRows t s = Cert.ReferenceIdeal.Stages.gatherRows t s := by
  unfold Cert.KernelIdeal.Stages.gatherRows Cert.ReferenceIdeal.Stages.gatherRows
  rw [wrapIdx_eq, colOf_eq]
  rfl

theorem aggRows_eq (msg : FVec Ideal Cert.KernelIdeal.S1700000x128 .f32) (d : IVec Cert.KernelIdeal.S1700000 32) :
    Cert.KernelIdeal.Stages.aggRows msg d = Cert.ReferenceIdeal.Stages.aggRows msg d := by
  unfold Cert.KernelIdeal.Stages.aggRows Cert.ReferenceIdeal.Stages.aggRows
  rw [colOf_eq]
  rfl

theorem tailOf_eq (h : FVec Ideal Cert.KernelIdeal.S100000x128 .f32) (batch : IVec Cert.KernelIdeal.S100000 32)
    (Wc : FVec Ideal Cert.KernelIdeal.S128x10 .f32) (bc : FVec Ideal Cert.KernelIdeal.S10 .f32) :
    Cert.KernelIdeal.Stages.tailOf h batch Wc bc = Cert.ReferenceIdeal.Stages.tailOf h batch Wc bc := rfl

end Shared

/-! ## A launch's matrix product is the host's -/

/-- The sum the matrix-product stage leaves is the host's plain `dot_general` at every entry. -/
theorem mmK_eq_plain {K : Nat} (a : FVec Ideal ⟨2, ![100000, K]⟩ .f32) (w : FVec Ideal ⟨2, ![K, 128]⟩ .f32) :
    Cert.KernelIdeal.Stages.mmK a w = FloatOps.dotGeneral (DotDims.plain 100000 K 128) none .single a w := by
  funext i
  obtain ⟨r, q, rfl⟩ : ∃ (r : Fin 100000) (q : Fin 128), i = ix2 r q := ⟨i 0, i 1, eq_ix2 i⟩
  rw [Cert.LibPlainDot.dotGeneral_plain_apply]
  rfl

/-- The printed dimension numbers of the first product are the plain ones. -/
theorem dot64_plain :
    Cert.ReferenceIdeal.dot_S100000x64_S64x128_S100000x128_1_0_0_1_n_n = DotDims.plain 100000 64 128 := rfl

/-- The printed dimension numbers of the second product are the plain ones. -/
theorem dot128_plain :
    Cert.ReferenceIdeal.dot_S100000x128_S128x128_S100000x128_1_0_0_1_n_n = DotDims.plain 100000 128 128 := rfl

/-- The first product (contraction over 64 features) is the host's. -/
theorem mm64 (x : FVec Ideal ⟨2, ![100000, 64]⟩ .f32) (w : FVec Ideal ⟨2, ![64, 128]⟩ .f32) :
    Cert.KernelIdeal.Stages.mmK (K := 64) x w
      = Host.dotGeneral (F := Ideal) Cert.ReferenceIdeal.dot_S100000x64_S64x128_S100000x128_1_0_0_1_n_n none x w := by
  rw [dot64_plain]
  exact mmK_eq_plain x w

/-- The second product (contraction over 128 features) is the host's. -/
theorem mm128 (x : FVec Ideal ⟨2, ![100000, 128]⟩ .f32) (w : FVec Ideal ⟨2, ![128, 128]⟩ .f32) :
    Cert.KernelIdeal.Stages.mmK (K := 128) x w
      = Host.dotGeneral (F := Ideal) Cert.ReferenceIdeal.dot_S100000x128_S128x128_S100000x128_1_0_0_1_n_n none x w := by
  rw [dot128_plain]
  exact mmK_eq_plain x w

/-! ## Scaling, bias and positive part -/

/-- The scale stage is the host's product with the column broadcast along the features. -/
theorem scale_eq (g : FVec Ideal ⟨2, ![1700000, 128]⟩ .f32) (n : FVec Ideal ⟨1, ![1700000]⟩ .f32) :
    Cert.KernelIdeal.Stages.scaleK g (Cert.KernelIdeal.Stages.normColK n)
      = Cert.ReferenceIdeal.Stages.scaleRows g (Cert.ReferenceIdeal.Stages.normCol n) := by
  funext i
  obtain ⟨r, q, rfl⟩ : ∃ (r : Fin 1700000) (q : Fin 128), i = ix2 r q := ⟨i 0, i 1, eq_ix2 i⟩
  unfold Cert.KernelIdeal.Stages.scaleK Cert.KernelIdeal.Stages.normColK
    Cert.ReferenceIdeal.Stages.scaleRows Cert.ReferenceIdeal.Stages.normCol
  show FloatOps.mulf (g (ix2 r q)) (shapeCast ⟨2, ![1700000, 1]⟩ n _ (ix2 r (0 : Fin 1)))
    = FloatOps.mulf (g (ix2 r q))
        (broadcastInDim ⟨2, ![1700000, 128]⟩ ![0, 1] _ (broadcastInDim ⟨2, ![1700000, 1]⟩ ![0] _ n) (ix2 r q))
  rw [shapeCast_col, bcast_rect_of_col, bcast_col]

/-- The bias stage is the host's sum with the row broadcast down the rows, then its maximum with zero. -/
theorem bias_eq (a : FVec Ideal ⟨2, ![100000, 128]⟩ .f32) (b : FVec Ideal ⟨1, ![128]⟩ .f32) :
    Cert.KernelIdeal.Stages.biasReluK a (Cert.KernelIdeal.Stages.biasRowK b)
      = Cert.ReferenceIdeal.Stages.biasRelu a (Cert.ReferenceIdeal.Stages.biasRow b) := by
  funext i
  obtain ⟨r, q, rfl⟩ : ∃ (r : Fin 100000) (q : Fin 128), i = ix2 r q := ⟨i 0, i 1, eq_ix2 i⟩
  unfold Cert.KernelIdeal.Stages.biasReluK Cert.KernelIdeal.Stages.biasRowK
    Cert.ReferenceIdeal.Stages.biasRelu Cert.ReferenceIdeal.Stages.biasRow
  show FloatOps.maximumf (FloatOps.addf (a (ix2 r q)) (shapeCast ⟨2, ![1, 128]⟩ b _ (ix2 (0 : Fin 1) q)))
      (FloatOps.ofBits .f32 0x00000000#32)
    = FloatOps.maximumf (FloatOps.addf (a (ix2 r q))
        (broadcastInDim ⟨2, ![100000, 128]⟩ ![0, 1] _ (broadcastInDim ⟨2, ![1, 128]⟩ ![1] _ b) (ix2 r q)))
      (FloatOps.ofBits .f32 0x00000000#32)
  rw [shapeCast_a_1a_apply, bcast_rect_of_row, bcast_row]

/-! ## One layer, and the whole function -/

/-- Where the kernel's row read at the sources is the plain gather, a layer of the kernel is a layer of the reference. -/
theorem layer_eq (ei : IVec Cert.KernelIdeal.S2x1600000 32)
    (htake : ∀ t : FVec Ideal Cert.KernelIdeal.S100000x128 .f32,
      Cert.KernelIdeal.Stages.takeRows t (Cert.KernelIdeal.Stages.srcOf ei) = Cert.KernelIdeal.Stages.gatherRows t (Cert.KernelIdeal.Stages.srcOf ei))
    (t : FVec Ideal Cert.KernelIdeal.S100000x128 .f32) (b : FVec Ideal Cert.KernelIdeal.S128 .f32) :
    Cert.KernelIdeal.Stages.layerK t ei b = Cert.ReferenceIdeal.Stages.layer (F := Ideal) t ei b := by
  unfold Cert.KernelIdeal.Stages.layerK Cert.ReferenceIdeal.Stages.layer
  rw [htake t, bias_eq, scale_eq, gatherRows_eq, srcOf_eq, normOf_eq, aggRows_eq, dstOf_eq]

/-- Where the kernel's row read at the sources is the plain gather, the two staged functions agree. -/
theorem ker_eq_ref (x : FVec Ideal Cert.KernelIdeal.S100000x64 .f32) (W1 : FVec Ideal Cert.KernelIdeal.S64x128 .f32) (b1 : FVec Ideal Cert.KernelIdeal.S128 .f32)
    (W2 : FVec Ideal Cert.KernelIdeal.S128x128 .f32) (b2 : FVec Ideal Cert.KernelIdeal.S128 .f32) (Wc : FVec Ideal Cert.KernelIdeal.S128x10 .f32)
    (bc : FVec Ideal Cert.KernelIdeal.S10 .f32) (ei : IVec Cert.KernelIdeal.S2x1600000 32) (batch : IVec Cert.KernelIdeal.S100000 32)
    (htake : ∀ t : FVec Ideal Cert.KernelIdeal.S100000x128 .f32,
      Cert.KernelIdeal.Stages.takeRows t (Cert.KernelIdeal.Stages.srcOf ei) = Cert.KernelIdeal.Stages.gatherRows t (Cert.KernelIdeal.Stages.srcOf ei)) :
    Cert.KernelIdeal.Stages.kerFun x W1 b1 W2 b2 Wc bc ei batch
      = Cert.ReferenceIdeal.Stages.refFun (F := Ideal) x W1 b1 W2 b2 Wc bc ei batch := by
  unfold Cert.KernelIdeal.Stages.kerFun Cert.ReferenceIdeal.Stages.refFun
  rw [mm64, layer_eq ei htake, mm128, layer_eq ei htake, tailOf_eq]

end Cert.Bridge

end
-- ==== Proof.RefValue.lean ====
/-
  The reference's value in stages: the composed term its run ends at is the staged function of the arguments.
-/
import proofs.«426322_j84559316124278_1_alg».proof.Proof.RefRun
import proofs.«426322_j84559316124278_1_alg».proof.Proof.StagesR

noncomputable section

namespace Cert.ReferenceIdeal.RefValue

open Idealize.ShloMosaic Idealize.ShloMosaic.TcCoe Idealize.SL.Sem Cert.ReferenceIdeal Cert.ReferenceIdeal.Gen

variable {F : FTy → Type} [FloatOps F]

/-- The run's composed result term IS the staged function of the argument arrays. -/
theorem res_eq (m : (ℓ : Loc nD τ sig) → Buf (Elt F) ℓ) (c : Dev nD) :
    Cert.ReferenceIdeal.RefRun.res_main_v83 m c
      = Stages.refFun (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.RefRun.res_main_v83 Stages.refFun Stages.tailOf Stages.layer Stages.biasRelu Stages.biasRow Stages.aggRows Stages.scaleRows Stages.normCol Stages.gatherRows Stages.normOf Stages.dinvOf Stages.degOf Stages.colOf Stages.wrapIdx Stages.srcOf Stages.dstOf
  rfl

end Cert.ReferenceIdeal.RefValue

end
-- ==== Proof.lean ====
/-
  The certificate of a two-layer graph convolution with mean pooling and a linear classifier: six launches (two dense
  transforms, two message scalings, two bias-and-positive-part steps) among the host's gathers and scatter-adds, against
  the plain jnp program.

  Over the extended reals the two programs are one function of the arguments wherever every message source is a node
  number: a launch's matrix product (its operands' change of float format is the identity) is the host's product; the
  scaling launch multiplies each gathered row by its normalisation, which the host does by broadcasting the column; the
  bias launch adds the bias row and takes the positive part, as the host's add and maximum do. The kernel's row read
  fills a row whose source is out of range while the host's gather clamps it; the precondition keeps the sources of the
  edge list in [0, 100000) (the self loops are node numbers by construction), and there the two reads agree. Every other
  host operation is the same on both sides.

  The frames of the two kernel programs are the generated ones; the reference's is its run with the result dropped. The
  ideal pass rewrote nothing, so `preserves` is trivial.
-/
import proofs.«426322_j84559316124278_1_alg».proof.Defs
import proofs.«426322_j84559316124278_1_alg».proof.Proof.Gen.Kernel
import proofs.«426322_j84559316124278_1_alg».proof.Proof.Gen.Kernel.Frame
import proofs.«426322_j84559316124278_1_alg».proof.Proof.Gen.KernelIdeal
import proofs.«426322_j84559316124278_1_alg».proof.Proof.Gen.KernelIdeal.Frame
import proofs.«426322_j84559316124278_1_alg».proof.Proof.Gen.ReferenceIdeal
import proofs.«426322_j84559316124278_1_alg».proof.Proof.Gen.Pre_finite_inputs
import proofs.«426322_j84559316124278_1_alg».proof.Proof.KRun
import proofs.«426322_j84559316124278_1_alg».proof.Proof.KFold
import proofs.«426322_j84559316124278_1_alg».proof.Proof.TakeRows
import proofs.«426322_j84559316124278_1_alg».proof.Proof.Bridge
import proofs.«426322_j84559316124278_1_alg».proof.Proof.RefRun
import proofs.«426322_j84559316124278_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result at the kernel's staged function of the arguments: the kernel by its run and the fold
    through its launches, the reference by its run, its staged form, and the agreement of the two staged functions where
    the precondition puts the sources in range. -/
theorem algebraic : Cert.algebraic_KernelIdeal_ReferenceIdeal := by
  intro m ρ m' ρ' hpre hagree
  refine ⟨fun c => Cert.KernelIdeal.Stages.kerFun
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.KFold.value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (Cert.Bridge.ker_eq_ref _ _ _ _ _ _ _ _ _ (fun t => Cert.KernelIdeal.TakeRows.take_of_pre m hpre c t)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
